-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S256 .f32) (main_arg5 : FVec F S256x10 .f32) (main_arg6 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg5
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S8192x8192 .f32) (main_arg1 : FVec F S8192x128 .f32) (main_arg2 : FVec F S8192 .f32) (main_arg3 : FVec F S128x256 .f32) (main_arg4 : FVec F S256 .f32) (main_arg5 : FVec F S256x10 .f32) (main_arg6 : FVec F S10 .f32) (main_arg7 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x1 : Shape := ⟨2, ![8192, 1]⟩
abbrev S1x8192 : Shape := ⟨2, ![1, 8192]⟩
abbrev S1x256 : Shape := ⟨2, ![1, 256]⟩
abbrev S1x10 : Shape := ⟨2, ![1, 10]⟩
abbrev S8192x256 : Shape := ⟨2, ![8192, 256]⟩
abbrev S1024x1024 : Shape := ⟨2, ![1024, 1024]⟩
abbrev S1024x1 : Shape := ⟨2, ![1024, 1]⟩
abbrev S1x1024 : Shape := ⟨2, ![1, 1024]⟩
abbrev S1024x128 : Shape := ⟨2, ![1024, 128]⟩
abbrev S1024x256 : Shape := ⟨2, ![1024, 256]⟩
abbrev S8192x10 : Shape := ⟨2, ![8192, 10]⟩
abbrev S1024x10 : Shape := ⟨2, ![1024, 10]⟩
abbrev S64x10 : Shape := ⟨2, ![64, 10]⟩
abbrev S64 : Shape := ⟨1, ![64]⟩
abbrev S64x1 : Shape := ⟨2, ![64, 1]⟩

abbrev nBuf : Space → Nat
  | .hbm => 38
  | .vmem => 26
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192, .f32⟩
  | .hbm, ⟨3, _⟩ => ⟨S128x256, .f32⟩
  | .hbm, ⟨4, _⟩ => ⟨S256, .f32⟩
  | .hbm, ⟨5, _⟩ => ⟨S256x10, .f32⟩
  | .hbm, ⟨6, _⟩ => ⟨S10, .f32⟩
  | .hbm, ⟨7, _⟩ => ⟨S8192, .i32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S1x8192, .f32⟩
  | .hbm, ⟨18, _⟩ => ⟨S1x256, .f32⟩
  | .hbm, ⟨19, _⟩ => ⟨S1x10, .f32⟩
  | .hbm, ⟨20, _⟩ => ⟨S8192x256, .f32⟩
  | .hbm, ⟨21, _⟩ => ⟨S8192x10, .f32⟩
  | .hbm, ⟨22, _⟩ => ⟨S_, .f32⟩
  | .hbm, ⟨23, _⟩ => ⟨S64x10, .f32⟩
  | .hbm, ⟨24, _⟩ => ⟨S8192x1, .i32⟩
  | .hbm, ⟨25, _⟩ => ⟨S64x10, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S64, .f32⟩
  | .hbm, ⟨30, _⟩ => ⟨S8192x1, .i32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64x1, .f32⟩
  | .hbm, ⟨36, _⟩ => ⟨S64x10, .f32⟩
  | .hbm, ⟨37, _⟩ => ⟨S64x10, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S128x256, .f32⟩
  | .local _ .vmem, ⟨9, _⟩ => ⟨S1x256, .f32⟩
  | .local _ .vmem, ⟨10, _⟩ => ⟨S1024x256, .f32⟩
  | .local _ .vmem, ⟨11, _⟩ => ⟨S1024x256, .f32⟩
  | .local _ .vmem, ⟨12, _⟩ => ⟨S1024x128, .f32⟩
  | .local _ .vmem, ⟨13, _⟩ => ⟨S1024x1024, .f32⟩
  | .local _ .vmem, ⟨14, _⟩ => ⟨S1024x1024, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x256, .f32⟩
  | .local _ .vmem, ⟨20, _⟩ => ⟨S1024x256, .f32⟩
  | .local _ .vmem, ⟨21, _⟩ => ⟨S256x10, .f32⟩
  | .local _ .vmem, ⟨22, _⟩ => ⟨S1x10, .f32⟩
  | .local _ .vmem, ⟨23, _⟩ => ⟨S1024x10, .f32⟩
  | .local _ .vmem, ⟨24, _⟩ => ⟨S1024x10, .f32⟩
  | .local _ .vmem, ⟨25, _⟩ => ⟨S1024x256, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S256x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  bcast_S_S8192 : S_.BroadcastsInDim S8192 (![] : Fin 0 → Fin S8192.rank)
  shapeCasts_S8192_S8192x1 : S8192.ShapeCasts S8192x1
  shapeCasts_S8192_S1x8192 : S8192.ShapeCasts S1x8192
  shapeCasts_S256_S1x256 : S256.ShapeCasts S1x256
  shapeCasts_S10_S1x10 : S10.ShapeCasts S1x10
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  bcast_S_S64x10 : S_.BroadcastsInDim S64x10 (![] : Fin 0 → Fin S64x10.rank)
  bcast_S8192_S8192x1_0 : S8192.BroadcastsInDim S8192x1 (![0] : Fin 1 → Fin S8192x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  dot_S1024x1024_S1024x128_S1024x128_1_0_0_1_n_n_wf : DotDims.WF S1024x1024 S1024x128 S1024x128 [1] [0] [0] [1] [] []
  dot_S1024x128_S128x256_S1024x256_1_0_0_1_n_n_wf : DotDims.WF S1024x128 S128x256 S1024x256 [1] [0] [0] [1] [] []
  dot_S1024x1024_S1024x256_S1024x256_1_0_0_1_n_n_wf : DotDims.WF S1024x1024 S1024x256 S1024x256 [1] [0] [0] [1] [] []
  dot_S1024x256_S256x10_S1024x10_1_0_0_1_n_n_wf : DotDims.WF S1024x256 S256x10 S1024x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .f32 = 32 ∨ (Rect.block (s := S8192x256) S1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x10.size a ≤ S256x10.size a
  hwx1_4 : ∀ i : grid1.Coords, EltTy.bits .f32 = 32 ∨ (Rect.block (s := S256x10) S256x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x10.size a ≤ S8192x10.size a
  hwx1_6 : ∀ i : grid1.Coords, EltTy.bits .f32 = 32 ∨ (Rect.block (s := S8192x10) S1024x10.size (cc1_transform_6 i) (hinb1_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x10_S1024x10_1_0_0_1_n_n : DotDims S1024x256 S256x10 S1024x10 where
  lhsContracting := [1]
  rhsContracting := [0]
  lhsNonContracting := [0]
  rhsNonContracting := [1]
  lhsBatch := []
  rhsBatch := []
  wf := dot_S1024x256_S256x10_S1024x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1024x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x128 : Shape := ⟨2, ![8192, 128]⟩
abbrev S8192 : Shape := ⟨1, ![8192]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩
abbrev S8192x1 : Shape := ⟨2, ![8192, 1]⟩
abbrev S1x8192 : Shape := ⟨2, ![1, 8192]⟩
abbrev S8192x256 : Shape := ⟨2, ![8192, 256]⟩
abbrev S1x256 : Shape := ⟨2, ![1, 256]⟩
abbrev S8192x10 : Shape := ⟨2, ![8192, 10]⟩
abbrev S1x10 : Shape := ⟨2, ![1, 10]⟩
abbrev S64x10 : Shape := ⟨2, ![64, 10]⟩
abbrev S64 : Shape := ⟨1, ![64]⟩
abbrev S64x1 : Shape := ⟨2, ![64, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S8192, .f32⟩
  | .hbm, ⟨3, _⟩ => ⟨S128x256, .f32⟩
  | .hbm, ⟨4, _⟩ => ⟨S256, .f32⟩
  | .hbm, ⟨5, _⟩ => ⟨S256x10, .f32⟩
  | .hbm, ⟨6, _⟩ => ⟨S10, .f32⟩
  | .hbm, ⟨7, _⟩ => ⟨S8192, .i32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .i1⟩
  | .hbm, ⟨12, _⟩ => ⟨S_, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x128, .f32⟩
  | .hbm, ⟨23, _⟩ => ⟨S8192x256, .f32⟩
  | .hbm, ⟨24, _⟩ => ⟨S1x256, .f32⟩
  | .hbm, ⟨25, _⟩ => ⟨S8192x256, .f32⟩
  | .hbm, ⟨26, _⟩ => ⟨S8192x256, .f32⟩
  | .hbm, ⟨27, _⟩ => ⟨S_, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S8192x10, .f32⟩
  | .hbm, ⟨32, _⟩ => ⟨S1x10, .f32⟩
  | .hbm, ⟨33, _⟩ => ⟨S8192x10, .f32⟩
  | .hbm, ⟨34, _⟩ => ⟨S8192x10, .f32⟩
  | .hbm, ⟨35, _⟩ => ⟨S_, .f32⟩
  | .hbm, ⟨36, _⟩ => ⟨S64x10, .f32⟩
  | .hbm, ⟨37, _⟩ => ⟨S8192x1, .i32⟩
  | .hbm, ⟨38, _⟩ => ⟨S64x10, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S64, .f32⟩
  | .hbm, ⟨43, _⟩ => ⟨S8192x1, .i32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S64x1, .f32⟩
  | .hbm, ⟨49, _⟩ => ⟨S64x10, .f32⟩
  | .hbm, ⟨50, _⟩ => ⟨S64x10, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_cst : Ref sig .tc := ⟨.hbm, 12, rfl⟩
abbrev main_call1_v0 : Ref sig .tc := ⟨.hbm, 13, rfl⟩
abbrev main_call1_v1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call2_cst : Ref sig .tc := ⟨.hbm, 27, rfl⟩
abbrev main_call2_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S_S64x10 : S_.BroadcastsInDim S64x10 (![] : Fin 0 → Fin S64x10.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x8192_S8192x256_S8192x256_1_0_0_1_n_n_wf : DotDims.WF S8192x8192 S8192x256 S8192x256 [1] [0] [0] [1] [] []
  dot_S8192x256_S256x10_S8192x10_1_0_0_1_n_n_wf : DotDims.WF S8192x256 S256x10 S8192x10 [1] [0] [0] [1] [] []
  scatter_S64x10_S8192x1_S8192x10_1_0_0_1_wf : ScatterDims.WF S64x10 S8192x1 S8192x10 [1] [0] [0] 1
  scatter_S64_S8192x1_S8192_n_0_0_1_wf : ScatterDims.WF S64 S8192x1 S8192 [] [0] [0] 1

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x10_S8192x10_1_0_0_1_n_n : DotDims S8192x256 S256x10 S8192x10 where
  lhsContracting := [1]
  rhsContracting := [0]
  lhsNonContracting := [0]
  rhsNonContracting := [1]
  lhsBatch := []
  rhsBatch := []
  wf := dot_S8192x256_S256x10_S8192x10_1_0_0_1_n_n_wf
def scatter_S64x10_S8192x1_S8192x10_1_0_0_1 : ScatterDims S64x10 S8192x1 S8192x10 where
  updateWindowDims := [1]
  insertedWindowDims := [0]
  scatterDimsToOperandDims := [0]
  indexVectorDim := 1
  wf := scatter_S64x10_S8192x1_S8192x10_1_0_0_1_wf
def scatter_S64_S8192x1_S8192_n_0_0_1 : ScatterDims S64 S8192x1 S8192 where
  updateWindowDims := []
  insertedWindowDims := [0]
  scatterDimsToOperandDims := [0]
  indexVectorDim := 1
  wf := scatter_S64_S8192x1_S8192_n_0_0_1_wf

class Facts : Prop extends Facts₀ where

variable [Facts]
-- ==== Proof.Conv0.lean ====
/-
  The first graph-convolution layer's kernel region: what its body does at each grid point (three control cases), what its accumulator and its output buffer hold point by point, the region's proof data and
  the body obligation over them. Everything is stated at any float instance and at a parameter `V`, the buffer contents
  the region is entered from.
-/
import proofs.«109548_j58411555225976_1_alg».proof.Proof.Gen.KernelIdeal.Launch
import proofs.«109548_j58411555225976_1_alg».proof.Proof.Gen.KernelIdeal.Skeleton
import proofs.«109548_j58411555225976_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first convolution's kernel region, at the buffer contents `V` it is entered from

The grid is 8 row blocks by 8 column blocks, the column block `k` innermost. At `k = 0` the body zeroes its
accumulator (a scratch buffer of 1024 x 128 kept from point to point); at every point it adds to the accumulator the
product of the normalised adjacency tile with the feature tile; at `k = 7` it stores the row block of the output,
`max (acc · W + b) 0`. So three control cases occur: first column block, a middle one, the last one. -/

variable (V : (c : Dev nD) → (b : Ref sig .tc) → Buf (Elt F) ((c : Thread nD τ).loc b))

/-! ## The two branch conditions, in closed form over the grid -/

/-- "the column block is the first": the body's first `scf.if`. -/
abbrev cond0_0 (i : grid0.Coords) : Prop := (Scalar.cmpi .ne (Scalar.extui (Scalar.cmpi .eq (BitVec.ofNat 32 (i 1).val) 0#32)) 0#32) = 1#1
/-- "the column block is the last": the body's second `scf.if`. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The output window is idle (nothing stored, nothing written back) away from the last column block, -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- and live at the last one. -/
theorem liveAt0_6 : ∀ t : Fin cfg0.N, cond0_1 (grid0.coords t) → cfg0.idle 6 (grid0.coords t) = false := by decide +kernel

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V c (Pipeline.arrRef spec0 w))
    (hafter : ∀ t, (cfg0.win w).cut (cfg0.grid.coords t) (dat.after w t) = iblk0 V c w t) (t : Fin cfg0.N) (d) :
    dat.before w t d = dat.fetched w t d :=
  dat.before_in_eq_fetched w hw hlive hclip (fun t => by rw [hafter]; unfold Dat.blockOf iblk0; rw [hA]) t d

/-! ## The body's three runs -/

/-- One accumulation step: the accumulator `acc` plus the product of the normalised adjacency tile (`x0` scaled by the
    row factors `x1` and the column factors `x2`) with the feature tile `x3`. -/
abbrev step0 (x0 : Vec F S1024x1024 .f32) (x1 : Vec F S1024x1 .f32) (x2 : Vec F S1x1024 .f32) (x3 : Vec F S1024x128 .f32) (acc : Vec F S1024x128 .f32) : Vec F S1024x128 .f32 :=
  k0_pay2 x0 x1 x2 acc x3

set_option maxHeartbeats 1000000 in
/-- FIRST COLUMN BLOCK (not the last): the accumulator, found at anything, is zeroed and one step is added; the output's
    buffer is handed back as found. -/
theorem run0_first (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : cond0_0 i) (hc1 : ¬cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xi6 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step0 x0 x1 x2 x3 (k0_pay1 (F := F)))) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x128_S1024x128_0_0 y⟩)]
  sl_unfold_words
  rw [View.canon_cons_unit_zero (S := S1024x128) hz]
  simp only [View.readAt_eq_ld, hf0, hf1, hf2, hf3, View.ld_unit_zero (S := S1024x128) hz, View.ld_unit_zero (S := S1024x1024) hzA,
    View.ld_unit_zero (S := S1024x1) hzB, View.ld_unit_zero (S := S1x1024) hzC, View.readCov_unit_zero (S := S1024x128) _ hz]

set_option maxHeartbeats 1000000 in
/-- A MIDDLE COLUMN BLOCK: one step is added to the accumulator the point before left; the output's buffer is handed
    back as found. -/
theorem run0_mid (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : ¬cond0_0 i) (hc1 : ¬cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xi6 : Vec F S1024x256 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step0 x0 x1 x2 x3 xs)) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x128_S1024x128_0_0 y⟩)]
  sl_unfold_words
  rw [View.canon_cons_unit_zero (S := S1024x128) hz]
  simp only [View.readAt_eq_ld, hf0, hf1, hf2, hf3, hfs0, View.ld_unit_zero (S := S1024x128) hz, View.ld_unit_zero (S := S1024x1024) hzA,
    View.ld_unit_zero (S := S1024x1) hzB, View.ld_unit_zero (S := S1x1024) hzC, View.readCov_unit_zero (S := S1024x128) _ hz]

set_option maxHeartbeats 1000000 in
/-- THE LAST COLUMN BLOCK: one step is added to the accumulator, and the output's buffer, found at anything, is stored
    whole with the finished row block (`k0_pay3` of the accumulator, the weights `x4` and the bias `x5`). -/
theorem run0_last (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : ¬cond0_0 i) (hc1 : cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay3 (step0 x0 x1 x2 x3 xs) x4 x5)
            ∗ owns (c : Thread nD τ) arg9 fullShare (step0 x0 x1 x2 x3 xs)) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0
  sl_exec (disch := first | exact hc0 | exact hc1)
  sl_step
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  have hzO : (![0, 0] : Fin S1024x256.rank → ℕ) = fun _ => 0 := by funext a; fin_cases a <;> rfl
  have hzW : (![0, 0] : Fin S128x256.rank → ℕ) = fun _ => 0 := by funext a; fin_cases a <;> rfl
  have hzV : (![0, 0] : Fin S1x256.rank → ℕ) = fun _ => 0 := by funext a; fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hzO inb_S1024x256_S1024x256_0_0 y⟩)]
    sl_unfold_words
    rw [View.canon_cons_unit_zero (S := S1024x256) hzO]
    simp only [View.readAt_eq_ld, hf0, hf1, hf2, hf3, hf4, hf5, hfs0, View.ld_unit_zero (S := S1024x128) hz, View.ld_unit_zero (S := S1024x1024) hzA,
      View.ld_unit_zero (S := S1024x1) hzB, View.ld_unit_zero (S := S1x1024) hzC, View.ld_unit_zero (S := S128x256) hzW, View.ld_unit_zero (S := S1x256) hzV,
      View.readCov_unit_zero (S := S1024x128) _ hz]
  iexists _; isplitr
  swap; · iexact HS0
  ipureintro
  sl_unfold_words
  rw [View.read_writes_eq_canon _ _ _ (fun y => ⟨_, List.mem_cons_self, View.mem_set_unit_zero hz inb_S1024x128_S1024x128_0_0 y⟩)]
  rw [View.canon_cons_unit_zero (S := S1024x128) hz]
  simp only [View.readAt_eq_ld, hf0, hf1, hf2, hf3, hfs0, View.ld_unit_zero (S := S1024x128) hz, View.ld_unit_zero (S := S1024x1024) hzA,
    View.ld_unit_zero (S := S1024x1) hzB, View.ld_unit_zero (S := S1x1024) hzC, View.readCov_unit_zero (S := S1024x128) _ hz]

/-! ## What the accumulator and the output hold, point by point -/

/-- The accumulation step at point `t`, on that point's input blocks. -/
abbrev stepAt0 (c : Dev nD) (t : Fin cfg0.N) (acc : Vec F S1024x128 .f32) : Vec F S1024x128 .f32 :=
  step0 (iblk0 V c 0 t) (iblk0 V c 1 t) (iblk0 V c 2 t) (iblk0 V c 3 t) acc

/-- THE ACCUMULATOR after the body at position `n`: restarted from zero at the first column block of each row block,
    else one step over what the point before left. -/
def sAt0 (c : Dev nD) : (n : ℕ) → n < cfg0.N → Vec F S1024x128 .f32
  | 0, hn => stepAt0 V c ⟨0, hn⟩ (k0_pay1 (F := F))
  | n + 1, hn => stepAt0 V c ⟨n + 1, hn⟩ (if (n + 1) % 8 = 0 then k0_pay1 (F := F) else sAt0 c n (Nat.lt_of_succ_lt hn))

theorem sAt0_first (c : Dev nD) (t : Fin cfg0.N) (h0 : t.val % 8 = 0) :
    sAt0 V c t.val t.isLt = stepAt0 V c t (k0_pay1 (F := F)) := by
  obtain ⟨n, hn⟩ := t
  cases n with
  | zero => rfl
  | succ n => show stepAt0 V c ⟨n + 1, hn⟩ (if (n + 1) % 8 = 0 then _ else _) = _; rw [if_pos h0]

theorem sAt0_next (c : Dev nD) (t : Fin cfg0.N) (h0 : ¬t.val % 8 = 0) :
    sAt0 V c t.val t.isLt = stepAt0 V c t (sAt0 V c (t.val - 1) (Nat.lt_of_le_of_lt (Nat.sub_le _ _) t.isLt)) := by
  obtain ⟨n, hn⟩ := t
  cases n with
  | zero => exact absurd (Nat.zero_mod _) h0
  | succ n => show stepAt0 V c ⟨n + 1, hn⟩ (if (n + 1) % 8 = 0 then _ else _) = _; rw [if_neg h0]; rfl

/-- THE OUTPUT's staging buffer after the body at point `t` (it matters at the last column block only, where the body
    stores it and the pipeline writes it back): the finished row block from the accumulator, the weights and the bias. -/
def oAt0 (c : Dev nD) (t : Fin cfg0.N) : Vec F S1024x256 .f32 :=
  k0_pay3 (sAt0 V c t.val t.isLt) (iblk0 V c 4 t) (iblk0 V c 5 t)

/-! ## The region invariant: the accumulator at what the point before left -/

/-- The kernel's accumulator: a whole scoped buffer of its own. -/
abbrev scM0 : Memref sig .tc .vmem S1024x128 .f32 := Memref.whole cc0_scratch0
/-- The core's other scoped buffers that this region does not stage (the second convolution's), untouched here. -/
abbrev others0 (c : Dev nD) : sProp 𝕄 :=
  Pipeline.scopedRestBut (Ix := Unit) (Name := ℕ) (U := UR sig nD τ) (Lvl := ℕ) (Val := Elt F) spec0 c [cc0_scratch0]

/-- What the region is handed besides its windows: the accumulator at anything, the other scoped buffers, the generator register. -/
theorem PhiA0_eq (c : Dev nD) :
    (Pipeline.ΦA spec0 c : sProp 𝕄) = iprop(((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL_singleton]
  rfl

/-- Before position `n`: at the region's entry what it is handed; afterwards the accumulator at what position `n - 1` left. -/
def PhiS0 (c : Dev nD) : (n : ℕ) → n ≤ cfg0.N → sProp 𝕄
  | 0, _ => Pipeline.ΦA spec0 c
  | n + 1, hn => iprop((owns (c : Thread nD τ) scM0 fullShare (sAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (sAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (sAt0 V c (n - 1) (by omega)) ∗ others0 c) ∗ (∃ r, prngReg c r)) := by
  cases n with
  | zero => exact absurd rfl hz
  | succ n => rfl

/-! ## The proof data -/

/-- The region's proof data on core `c`: the arrays as it finds them; after the body each input's buffer at its block,
    the output's at `oAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = oAt0 V c t := by dsimp only [dat0]

/-- Each input's current staging buffer holds its block at every point. -/
theorem before0_0 (c : Dev nD) (t : Fin cfg0.N) (d) : (dat0 V c).before 0 t d = iblk0 V c 0 t :=
  (before0_in_of V (dat0 V c) 0 rfl (fun _ => rfl) (fun _ _ _ => rfl) (A_eq0 V c 0) (fun t => by rw [after0_0]) t d).trans
    (by unfold Dat.fetched Dat.blockOf iblk0; rw [A_eq0]; rfl)
theorem before0_1 (c : Dev nD) (t : Fin cfg0.N) (d) : (dat0 V c).before 1 t d = iblk0 V c 1 t :=
  (before0_in_of V (dat0 V c) 1 rfl (fun _ => rfl) (fun _ _ _ => rfl) (A_eq0 V c 1) (fun t => by rw [after0_1]) t d).trans
    (by unfold Dat.fetched Dat.blockOf iblk0; rw [A_eq0]; rfl)
theorem before0_2 (c : Dev nD) (t : Fin cfg0.N) (d) : (dat0 V c).before 2 t d = iblk0 V c 2 t :=
  (before0_in_of V (dat0 V c) 2 rfl (fun _ => rfl) (fun _ _ _ => rfl) (A_eq0 V c 2) (fun t => by rw [after0_2]) t d).trans
    (by unfold Dat.fetched Dat.blockOf iblk0; rw [A_eq0]; rfl)
theorem before0_3 (c : Dev nD) (t : Fin cfg0.N) (d) : (dat0 V c).before 3 t d = iblk0 V c 3 t :=
  (before0_in_of V (dat0 V c) 3 rfl (fun _ => rfl) (fun _ _ _ => rfl) (A_eq0 V c 3) (fun t => by rw [after0_3]) t d).trans
    (by unfold Dat.fetched Dat.blockOf iblk0; rw [A_eq0]; rfl)
theorem before0_4 (c : Dev nD) (t : Fin cfg0.N) (d) : (dat0 V c).before 4 t d = iblk0 V c 4 t :=
  (before0_in_of V (dat0 V c) 4 rfl (fun _ => rfl) (fun _ _ _ => rfl) (A_eq0 V c 4) (fun t => by rw [after0_4]) t d).trans
    (by unfold Dat.fetched Dat.blockOf iblk0; rw [A_eq0]; rfl)
theorem before0_5 (c : Dev nD) (t : Fin cfg0.N) (d) : (dat0 V c).before 5 t d = iblk0 V c 5 t :=
  (before0_in_of V (dat0 V c) 5 rfl (fun _ => rfl) (fun _ _ _ => rfl) (A_eq0 V c 5) (fun t => by rw [after0_5]) t d).trans
    (by unfold Dat.fetched Dat.blockOf iblk0; rw [A_eq0]; rfl)

/-! ## The body obligation -/

theorem leaves0_0 (c : Dev nD) (t : Fin cfg0.N) : (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) : (dat0 V c).leavesExact 1 t = owns (c : Thread nD τ) (st0_1 t) fullShare (iblk0 V c 1 t) := by
  unfold Dat.leavesExact; rw [show cfg0.idle 1 (cfg0.grid.coords t) = false from rfl, after0_1]
theorem leaves0_2 (c : Dev nD) (t : Fin cfg0.N) : (dat0 V c).leavesExact 2 t = owns (c : Thread nD τ) (st0_2 t) fullShare (iblk0 V c 2 t) := by
  unfold Dat.leavesExact; rw [show cfg0.idle 2 (cfg0.grid.coords t) = false from rfl, after0_2]
theorem leaves0_3 (c : Dev nD) (t : Fin cfg0.N) : (dat0 V c).leavesExact 3 t = owns (c : Thread nD τ) (st0_3 t) fullShare (iblk0 V c 3 t) := by
  unfold Dat.leavesExact; rw [show cfg0.idle 3 (cfg0.grid.coords t) = false from rfl, after0_3]
theorem leaves0_4 (c : Dev nD) (t : Fin cfg0.N) : (dat0 V c).leavesExact 4 t = owns (c : Thread nD τ) (st0_4 t) fullShare (iblk0 V c 4 t) := by
  unfold Dat.leavesExact; rw [show cfg0.idle 4 (cfg0.grid.coords t) = false from rfl, after0_4]
theorem leaves0_5 (c : Dev nD) (t : Fin cfg0.N) : (dat0 V c).leavesExact 5 t = owns (c : Thread nD τ) (st0_5 t) fullShare (iblk0 V c 5 t) := by
  unfold Dat.leavesExact; rw [show cfg0.idle 5 (cfg0.grid.coords t) = false from rfl, after0_5]
theorem leaves0_6_live (c : Dev nD) (t : Fin cfg0.N) (h : cond0_1 (grid0.coords t)) :
    (dat0 V c).leavesExact 6 t = owns (c : Thread nD τ) (st0_6 t) fullShare (oAt0 V c t) := by
  unfold Dat.leavesExact; rw [liveAt0_6 t h, after0_6]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- The body at any point: the inputs' buffers hold their blocks; the closed forms say which of the three runs applies;
    the invariant hands the run the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 64 := lt_of_lt_of_eq t.isLt (show cfg0.N = 64 from N_0)
  by_cases h0 : t.val % 8 = 0
  · by_cases h1 : t.val % 8 = 7
    · exfalso; omega
    · rw [Dat.leavesExact_idle (dat0 V c) 6 t (idleAt0_6 t (fun h => h1 ((hcond0_1 t).mp h))) (noFlush0_6 t (fun h => h1 ((hcond0_1 t).mp h)))]
      rw [sAt0_first V c t h0]
      by_cases hz : t.val = 0
      ·
        rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_first c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_first c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves0_6_live V c t ((hcond0_1 t).mpr h1)]
      unfold oAt0
      rw [sAt0_next V c t h0]
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_last c Set.univ (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [Dat.leavesExact_idle (dat0 V c) 6 t (idleAt0_6 t (fun h => h1 ((hcond0_1 t).mp h))) (noFlush0_6 t (fun h => h1 ((hcond0_1 t).mp h)))]
      rw [sAt0_next V c t h0]
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_mid c Set.univ (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]; · iexists _; iexact HS0
    iexact Hoth
  iexact Hg

end Cert.KernelIdeal.Hand

end
-- ==== Proof.Conv1.lean ====
/-
  The second graph-convolution layer's kernel region: what its body does at each grid point (three control cases), what its accumulator and its output buffer hold point by point, the region's proof data and
  the body obligation over them. Everything is stated at any float instance and at a parameter `V`, the buffer contents
  the region is entered from.
-/
import proofs.«109548_j58411555225976_1_alg».proof.Proof.Gen.KernelIdeal.Launch
import proofs.«109548_j58411555225976_1_alg».proof.Proof.Gen.KernelIdeal.Skeleton
import proofs.«109548_j58411555225976_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The second convolution's kernel region, at the buffer contents `V` it is entered from

The grid is 8 row blocks by 8 column blocks, the column block `k` innermost. At `k = 0` the body zeroes its
accumulator (a scratch buffer of 1024 x 256 kept from point to point); at every point it adds to the accumulator the
product of the normalised adjacency tile with the feature tile; at `k = 7` it stores the row block of the output,
`acc · W + b`. So three control cases occur: first column block, a middle one, the last one. -/

variable (V : (c : Dev nD) → (b : Ref sig .tc) → Buf (Elt F) ((c : Thread nD τ).loc b))

/-! ## The two branch conditions, in closed form over the grid -/

/-- "the column block is the first": the body's first `scf.if`. -/
abbrev cond1_0 (i : grid1.Coords) : Prop := (Scalar.cmpi .ne (Scalar.extui (Scalar.cmpi .eq (BitVec.ofNat 32 (i 1).val) 0#32)) 0#32) = 1#1
/-- "the column block is the last": the body's second `scf.if`. -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The output window is idle (nothing stored, nothing written back) away from the last column block, -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- and live at the last one. -/
theorem liveAt1_6 : ∀ t : Fin cfg1.N, cond1_1 (grid1.coords t) → cfg1.idle 6 (grid1.coords t) = false := by decide +kernel

/-! ## The input windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_in_of {c : Dev nD} (dat : Dat τ (Elt F) Unit ℕ (UR sig nD τ) ℕ cfg1 c) (w : Fin cfg1.W) (hw : (cfg1.win w).isOut = false)
    (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hA : dat.A w = V c (Pipeline.arrRef spec1 w))
    (hafter : ∀ t, (cfg1.win w).cut (cfg1.grid.coords t) (dat.after w t) = iblk1 V c w t) (t : Fin cfg1.N) (d) :
    dat.before w t d = dat.fetched w t d :=
  dat.before_in_eq_fetched w hw hlive hclip (fun t => by rw [hafter]; unfold Dat.blockOf iblk1; rw [hA]) t d

/-! ## The body's three runs -/

/-- One accumulation step: the accumulator `acc` plus the product of the normalised adjacency tile (`x0` scaled by the
    row factors `x1` and the column factors `x2`) with the feature tile `x3`. -/
abbrev step1 (x0 : Vec F S1024x1024 .f32) (x1 : Vec F S1024x1 .f32) (x2 : Vec F S1x1024 .f32) (x3 : Vec F S1024x256 .f32) (acc : Vec F S1024x256 .f32) : Vec F S1024x256 .f32 :=
  k1_pay2 x0 x1 x2 acc x3

set_option maxHeartbeats 1000000 in
/-- FIRST COLUMN BLOCK (not the last): the accumulator, found at anything, is zeroed and one step is added; the output's
    buffer is handed back as found. -/
theorem run1_first (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : cond1_0 i) (hc1 : ¬cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xi6 : Vec F S1024x10 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step1 x0 x1 x2 x3 (k1_pay1 (F := F)))) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x256_S1024x256_0_0 y⟩)]
  sl_unfold_words
  rw [View.canon_cons_unit_zero (S := S1024x256) hz]
  simp only [View.readAt_eq_ld, hf0, hf1, hf2, hf3, View.ld_unit_zero (S := S1024x256) hz, View.ld_unit_zero (S := S1024x1024) hzA,
    View.ld_unit_zero (S := S1024x1) hzB, View.ld_unit_zero (S := S1x1024) hzC, View.readCov_unit_zero (S := S1024x256) _ hz]

set_option maxHeartbeats 1000000 in
/-- A MIDDLE COLUMN BLOCK: one step is added to the accumulator the point before left; the output's buffer is handed
    back as found. -/
theorem run1_mid (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : ¬cond1_0 i) (hc1 : ¬cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xi6 : Vec F S1024x10 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step1 x0 x1 x2 x3 xs)) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x256_S1024x256_0_0 y⟩)]
  sl_unfold_words
  rw [View.canon_cons_unit_zero (S := S1024x256) hz]
  simp only [View.readAt_eq_ld, hf0, hf1, hf2, hf3, hfs0, View.ld_unit_zero (S := S1024x256) hz, View.ld_unit_zero (S := S1024x1024) hzA,
    View.ld_unit_zero (S := S1024x1) hzB, View.ld_unit_zero (S := S1x1024) hzC, View.readCov_unit_zero (S := S1024x256) _ hz]

set_option maxHeartbeats 1000000 in
/-- THE LAST COLUMN BLOCK: one step is added to the accumulator, and the output's buffer, found at anything, is stored
    whole with the finished row block (`k1_pay3` of the accumulator, the weights `x4` and the bias `x5`). -/
theorem run1_last (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : ¬cond1_0 i) (hc1 : cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k1_pay3 (step1 x0 x1 x2 x3 xs) x4 x5)
            ∗ owns (c : Thread nD τ) arg9 fullShare (step1 x0 x1 x2 x3 xs)) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0
  sl_exec (disch := first | exact hc0 | exact hc1)
  sl_step
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  have hzO : (![0, 0] : Fin S1024x10.rank → ℕ) = fun _ => 0 := by funext a; fin_cases a <;> rfl
  have hzW : (![0, 0] : Fin S256x10.rank → ℕ) = fun _ => 0 := by funext a; fin_cases a <;> rfl
  have hzV : (![0, 0] : Fin S1x10.rank → ℕ) = fun _ => 0 := by funext a; fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hzO inb_S1024x10_S1024x10_0_0 y⟩)]
    sl_unfold_words
    rw [View.canon_cons_unit_zero (S := S1024x10) hzO]
    simp only [View.readAt_eq_ld, hf0, hf1, hf2, hf3, hf4, hf5, hfs0, View.ld_unit_zero (S := S1024x256) hz, View.ld_unit_zero (S := S1024x1024) hzA,
      View.ld_unit_zero (S := S1024x1) hzB, View.ld_unit_zero (S := S1x1024) hzC, View.ld_unit_zero (S := S256x10) hzW, View.ld_unit_zero (S := S1x10) hzV,
      View.readCov_unit_zero (S := S1024x256) _ hz]
  iexists _; isplitr
  swap; · iexact HS0
  ipureintro
  sl_unfold_words
  rw [View.read_writes_eq_canon _ _ _ (fun y => ⟨_, List.mem_cons_self, View.mem_set_unit_zero hz inb_S1024x256_S1024x256_0_0 y⟩)]
  rw [View.canon_cons_unit_zero (S := S1024x256) hz]
  simp only [View.readAt_eq_ld, hf0, hf1, hf2, hf3, hfs0, View.ld_unit_zero (S := S1024x256) hz, View.ld_unit_zero (S := S1024x1024) hzA,
    View.ld_unit_zero (S := S1024x1) hzB, View.ld_unit_zero (S := S1x1024) hzC, View.readCov_unit_zero (S := S1024x256) _ hz]

/-! ## What the accumulator and the output hold, point by point -/

/-- The accumulation step at point `t`, on that point's input blocks. -/
abbrev stepAt1 (c : Dev nD) (t : Fin cfg1.N) (acc : Vec F S1024x256 .f32) : Vec F S1024x256 .f32 :=
  step1 (iblk1 V c 0 t) (iblk1 V c 1 t) (iblk1 V c 2 t) (iblk1 V c 3 t) acc

/-- THE ACCUMULATOR after the body at position `n`: restarted from zero at the first column block of each row block,
    else one step over what the point before left. -/
def sAt1 (c : Dev nD) : (n : ℕ) → n < cfg1.N → Vec F S1024x256 .f32
  | 0, hn => stepAt1 V c ⟨0, hn⟩ (k1_pay1 (F := F))
  | n + 1, hn => stepAt1 V c ⟨n + 1, hn⟩ (if (n + 1) % 8 = 0 then k1_pay1 (F := F) else sAt1 c n (Nat.lt_of_succ_lt hn))

theorem sAt1_first (c : Dev nD) (t : Fin cfg1.N) (h0 : t.val % 8 = 0) :
    sAt1 V c t.val t.isLt = stepAt1 V c t (k1_pay1 (F := F)) := by
  obtain ⟨n, hn⟩ := t
  cases n with
  | zero => rfl
  | succ n => show stepAt1 V c ⟨n + 1, hn⟩ (if (n + 1) % 8 = 0 then _ else _) = _; rw [if_pos h0]

theorem sAt1_next (c : Dev nD) (t : Fin cfg1.N) (h0 : ¬t.val % 8 = 0) :
    sAt1 V c t.val t.isLt = stepAt1 V c t (sAt1 V c (t.val - 1) (Nat.lt_of_le_of_lt (Nat.sub_le _ _) t.isLt)) := by
  obtain ⟨n, hn⟩ := t
  cases n with
  | zero => exact absurd (Nat.zero_mod _) h0
  | succ n => show stepAt1 V c ⟨n + 1, hn⟩ (if (n + 1) % 8 = 0 then _ else _) = _; rw [if_neg h0]; rfl

/-- THE OUTPUT's staging buffer after the body at point `t` (it matters at the last column block only, where the body
    stores it and the pipeline writes it back): the finished row block from the accumulator, the weights and the bias. -/
def oAt1 (c : Dev nD) (t : Fin cfg1.N) : Vec F S1024x10 .f32 :=
  k1_pay3 (sAt1 V c t.val t.isLt) (iblk1 V c 4 t) (iblk1 V c 5 t)

/-! ## The region invariant: the accumulator at what the point before left -/

/-- The kernel's accumulator: a whole scoped buffer of its own. -/
abbrev scM1 : Memref sig .tc .vmem S1024x256 .f32 := Memref.whole cc1_scratch0
/-- The core's other scoped buffers that this region does not stage (the first convolution's), untouched here. -/
abbrev others1 (c : Dev nD) : sProp 𝕄 :=
  Pipeline.scopedRestBut (Ix := Unit) (Name := ℕ) (U := UR sig nD τ) (Lvl := ℕ) (Val := Elt F) spec1 c [cc1_scratch0]

/-- What the region is handed besides its windows: the accumulator at anything, the other scoped buffers, the generator register. -/
theorem PhiA1_eq (c : Dev nD) :
    (Pipeline.ΦA spec1 c : sProp 𝕄) = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL_singleton]
  rfl

/-- Before position `n`: at the region's entry what it is handed; afterwards the accumulator at what position `n - 1` left. -/
def PhiS1 (c : Dev nD) : (n : ℕ) → n ≤ cfg1.N → sProp 𝕄
  | 0, _ => Pipeline.ΦA spec1 c
  | n + 1, hn => iprop((owns (c : Thread nD τ) scM1 fullShare (sAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (sAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (sAt1 V c (n - 1) (by omega)) ∗ others1 c) ∗ (∃ r, prngReg c r)) := by
  cases n with
  | zero => exact absurd rfl hz
  | succ n => rfl

/-! ## The proof data -/

/-- The region's proof data on core `c`: the arrays as it finds them; after the body each input's buffer at its block,
    the output's at `oAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- Each input's current staging buffer holds its block at every point. -/
theorem before1_0 (c : Dev nD) (t : Fin cfg1.N) (d) : (dat1 V c).before 0 t d = iblk1 V c 0 t :=
  (before1_in_of V (dat1 V c) 0 rfl (fun _ => rfl) (fun _ _ _ => rfl) (A_eq1 V c 0) (fun t => by rw [after1_0]) t d).trans
    (by unfold Dat.fetched Dat.blockOf iblk1; rw [A_eq1]; rfl)
theorem before1_1 (c : Dev nD) (t : Fin cfg1.N) (d) : (dat1 V c).before 1 t d = iblk1 V c 1 t :=
  (before1_in_of V (dat1 V c) 1 rfl (fun _ => rfl) (fun _ _ _ => rfl) (A_eq1 V c 1) (fun t => by rw [after1_1]) t d).trans
    (by unfold Dat.fetched Dat.blockOf iblk1; rw [A_eq1]; rfl)
theorem before1_2 (c : Dev nD) (t : Fin cfg1.N) (d) : (dat1 V c).before 2 t d = iblk1 V c 2 t :=
  (before1_in_of V (dat1 V c) 2 rfl (fun _ => rfl) (fun _ _ _ => rfl) (A_eq1 V c 2) (fun t => by rw [after1_2]) t d).trans
    (by unfold Dat.fetched Dat.blockOf iblk1; rw [A_eq1]; rfl)
theorem before1_3 (c : Dev nD) (t : Fin cfg1.N) (d) : (dat1 V c).before 3 t d = iblk1 V c 3 t :=
  (before1_in_of V (dat1 V c) 3 rfl (fun _ => rfl) (fun _ _ _ => rfl) (A_eq1 V c 3) (fun t => by rw [after1_3]) t d).trans
    (by unfold Dat.fetched Dat.blockOf iblk1; rw [A_eq1]; rfl)
theorem before1_4 (c : Dev nD) (t : Fin cfg1.N) (d) : (dat1 V c).before 4 t d = iblk1 V c 4 t :=
  (before1_in_of V (dat1 V c) 4 rfl (fun _ => rfl) (fun _ _ _ => rfl) (A_eq1 V c 4) (fun t => by rw [after1_4]) t d).trans
    (by unfold Dat.fetched Dat.blockOf iblk1; rw [A_eq1]; rfl)
theorem before1_5 (c : Dev nD) (t : Fin cfg1.N) (d) : (dat1 V c).before 5 t d = iblk1 V c 5 t :=
  (before1_in_of V (dat1 V c) 5 rfl (fun _ => rfl) (fun _ _ _ => rfl) (A_eq1 V c 5) (fun t => by rw [after1_5]) t d).trans
    (by unfold Dat.fetched Dat.blockOf iblk1; rw [A_eq1]; rfl)

/-! ## The body obligation -/

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem leaves1_6_live (c : Dev nD) (t : Fin cfg1.N) (h : cond1_1 (grid1.coords t)) :
    (dat1 V c).leavesExact 6 t = owns (c : Thread nD τ) (st1_6 t) fullShare (oAt1 V c t) := by
  unfold Dat.leavesExact; rw [liveAt1_6 t h, after1_6]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the inputs' buffers hold their blocks; the closed forms say which of the three runs applies;
    the invariant hands the run the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 6 t (idleAt1_6 t (fun h => h1 ((hcond1_1 t).mp h))) (noFlush1_6 t (fun h => h1 ((hcond1_1 t).mp h)))]
      rw [sAt1_first V c t h0]
      by_cases hz : t.val = 0
      ·
        rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves1_6_live V c t ((hcond1_1 t).mpr h1)]
      unfold oAt1
      rw [sAt1_next V c t h0]
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_last c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [Dat.leavesExact_idle (dat1 V c) 6 t (idleAt1_6 t (fun h => h1 ((hcond1_1 t).mp h))) (noFlush1_6 t (fun h => h1 ((hcond1_1 t).mp h)))]
      rw [sAt1_next V c t h0]
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_mid c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]; · iexists _; iexact HS0
    iexact Hoth
  iexact Hg

end Cert.KernelIdeal.Hand

end
-- ==== Proof.Run.lean ====
/-
  The run of the whole program: the buffer contents at each boundary between @main's items (a host stretch rewrites
  its results; a kernel region rewrites its output array with what its write-backs leave), each kernel region as a
  segment over those contents, and the launch. Its conclusion names what EVERY unscoped buffer holds at the end; the
  frame claim reads the eight arguments there, a value claim reads the result.
-/
import proofs.«109548_j58411555225976_1_alg».proof.Proof.Conv0
import proofs.«109548_j58411555225976_1_alg».proof.Proof.Conv1
import proofs.«109548_j58411555225976_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0's entry contents, read at the TensorCore's references: after the four host stretches. -/
abbrev Vr4 : (c : Dev nD) → (b : Ref sig .tc) → Buf (Elt F) ((c : Thread nD τ).loc b) := fun c b => V4 m c b
/-- What region 0 leaves in its output array: the write-backs of its 64 points folded over the entry contents. -/
def arr0 (c : Dev nD) : Buf (Elt F) ((c : Thread nD τ).loc main_v6) := (dat0 (Vr4 m) c).arrAt 6 cfg0.N
/-- After region 0: its output array at `arr0`, every other buffer as entered. -/
def W5 (c : Dev nD) : Valuation τ sig (Elt F) := Function.update (V4 m c) main_v6 (arr0 m c)
abbrev Vr5 : (c : Dev nD) → (b : Ref sig .tc) → Buf (Elt F) ((c : Thread nD τ).loc b) := fun c b => W5 m c b
/-- What region 1 leaves in its output array. -/
def arr1 (c : Dev nD) : Buf (Elt F) ((c : Thread nD τ).loc main_v7) := (dat1 (Vr5 m) c).arrAt 6 cfg1.N
/-- After region 1. -/
def W6 (c : Dev nD) : Valuation τ sig (Elt F) := Function.update (W5 m c) main_v7 (arr1 m c)
abbrev Vr6 : (c : Dev nD) → (b : Ref sig .tc) → Buf (Elt F) ((c : Thread nD τ).loc b) := fun c b => W6 m c b
/-- After the last host stretch: the end. -/
abbrev W7 (c : Dev nD) : Valuation τ sig (Elt F) := StableHlo.after hostOps2 (W6 m c)

theorem W5_of (c : Dev nD) (r : Ref sig .tc) (h : r ≠ main_v6) : W5 m c r = V4 m c r := by
  unfold W5; exact Function.update_of_ne (StableHlo.devRef_ne_of_ne h) _ _
theorem W5_v6 (c : Dev nD) : W5 m c main_v6 = arr0 m c := by
  unfold W5; exact Function.update_self _ _ _
theorem W6_of (c : Dev nD) (r : Ref sig .tc) (h : r ≠ main_v7) : W6 m c r = W5 m c r := by
  unfold W6; exact Function.update_of_ne (StableHlo.devRef_ne_of_ne h) _ _
theorem W6_v7 (c : Dev nD) : W6 m c main_v7 = arr1 m c := by
  unfold W6; exact Function.update_self _ _ _
theorem W7_of (c : Dev nD) (r : Ref sig .tc) (h : r ∉ hostOps2_W) : W7 m c r = W6 m c r :=
  StableHlo.after_of_writes_sub hostOps2 _ hostOps2_writes h

/-- At region 0's exit each of its arrays holds what the pipeline leaves, -/
theorem hF0 (c : Dev nD) : ∀ w : Fin cfg0.W, (dat0 (Vr4 m) c).arrAt w cfg0.N = Vr5 m c (Pipeline.arrRef spec0 w)
  | ⟨0, _⟩ => ((dat0 _ c).arrAt_in 0 rfl _).trans ((A_eq0 _ c 0).trans (W5_of m c _ (by decide)).symm)
  | ⟨1, _⟩ => ((dat0 _ c).arrAt_in 1 rfl _).trans ((A_eq0 _ c 1).trans (W5_of m c _ (by decide)).symm)
  | ⟨2, _⟩ => ((dat0 _ c).arrAt_in 2 rfl _).trans ((A_eq0 _ c 2).trans (W5_of m c _ (by decide)).symm)
  | ⟨3, _⟩ => ((dat0 _ c).arrAt_in 3 rfl _).trans ((A_eq0 _ c 3).trans (W5_of m c _ (by decide)).symm)
  | ⟨4, _⟩ => ((dat0 _ c).arrAt_in 4 rfl _).trans ((A_eq0 _ c 4).trans (W5_of m c _ (by decide)).symm)
  | ⟨5, _⟩ => ((dat0 _ c).arrAt_in 5 rfl _).trans ((A_eq0 _ c 5).trans (W5_of m c _ (by decide)).symm)
  | ⟨6, _⟩ => (W5_v6 m c).symm
/-- and every other buffer what it held at entry. -/
theorem hrest0 (c : Dev nD) : ∀ b, b ∉ Finset.univ.image (Pipeline.arrRef spec0) → Vr5 m c b = Vr4 m c b :=
  fun b hb => W5_of m c b fun e => hb (Finset.mem_image.mpr ⟨6, Finset.mem_univ _, e.symm⟩)
theorem hF1 (c : Dev nD) : ∀ w : Fin cfg1.W, (dat1 (Vr5 m) c).arrAt w cfg1.N = Vr6 m c (Pipeline.arrRef spec1 w)
  | ⟨0, _⟩ => ((dat1 _ c).arrAt_in 0 rfl _).trans ((A_eq1 _ c 0).trans (W6_of m c _ (by decide)).symm)
  | ⟨1, _⟩ => ((dat1 _ c).arrAt_in 1 rfl _).trans ((A_eq1 _ c 1).trans (W6_of m c _ (by decide)).symm)
  | ⟨2, _⟩ => ((dat1 _ c).arrAt_in 2 rfl _).trans ((A_eq1 _ c 2).trans (W6_of m c _ (by decide)).symm)
  | ⟨3, _⟩ => ((dat1 _ c).arrAt_in 3 rfl _).trans ((A_eq1 _ c 3).trans (W6_of m c _ (by decide)).symm)
  | ⟨4, _⟩ => ((dat1 _ c).arrAt_in 4 rfl _).trans ((A_eq1 _ c 4).trans (W6_of m c _ (by decide)).symm)
  | ⟨5, _⟩ => ((dat1 _ c).arrAt_in 5 rfl _).trans ((A_eq1 _ c 5).trans (W6_of m c _ (by decide)).symm)
  | ⟨6, _⟩ => (W6_v7 m c).symm
theorem hrest1 (c : Dev nD) : ∀ b, b ∉ Finset.univ.image (Pipeline.arrRef spec1) → Vr6 m c b = Vr5 m c b :=
  fun b hb => W6_of m c b fun e => hb (Finset.mem_image.mpr ⟨6, Finset.mem_univ _, e.symm⟩)

/-! ### The arguments end as launched: no host operation writes one and no region's output array is one -/

theorem W7_main_arg0 (c : Dev nD) : W7 m c main_arg0 = m ((c : Thread nD τ).loc main_arg0) :=
  (W7_of m c main_arg0 (by decide)).trans <| (W6_of m c main_arg0 (by decide)).trans <| (W5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (W5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (W5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c main_arg3 = m ((c : Thread nD τ).loc main_arg3) :=
  (W7_of m c main_arg3 (by decide)).trans <| (W6_of m c main_arg3 (by decide)).trans <| (W5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c main_arg4 = m ((c : Thread nD τ).loc main_arg4) :=
  (W7_of m c main_arg4 (by decide)).trans <| (W6_of m c main_arg4 (by decide)).trans <| (W5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c main_arg5 = m ((c : Thread nD τ).loc main_arg5) :=
  (W7_of m c main_arg5 (by decide)).trans <| (W6_of m c main_arg5 (by decide)).trans <| (W5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg6 (c : Dev nD) : W7 m c main_arg6 = m ((c : Thread nD τ).loc main_arg6) :=
  (W7_of m c main_arg6 (by decide)).trans <| (W6_of m c main_arg6 (by decide)).trans <| (W5_of m c main_arg6 (by decide)).trans <| (V4_of m c main_arg6 (by decide)).trans <| (V3_of m c main_arg6 (by decide)).trans <| (V2_of m c main_arg6 (by decide)).trans <| (V1_of m c main_arg6 (by decide)).trans rfl
theorem W7_main_arg7 (c : Dev nD) : W7 m c main_arg7 = m ((c : Thread nD τ).loc main_arg7) :=
  (W7_of m c main_arg7 (by decide)).trans <| (W6_of m c main_arg7 (by decide)).trans <| (W5_of m c main_arg7 (by decide)).trans <| (V4_of m c main_arg7 (by decide)).trans <| (V3_of m c main_arg7 (by decide)).trans <| (V2_of m c main_arg7 (by decide)).trans <| (V1_of m c main_arg7 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr4 m) c
  | ⟨1, _⟩ => fun c => dat1 (Vr5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end's contents, the generator register at some state. -/
abbrev Tₙ (c : Dev nD) : sProp 𝕄 := iprop(StableHlo.held (c : Thread nD τ) (Pipeline.ucRefs τ sig) (W7 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at its entry contents, left with its output array
    at what the write-backs leave and every other buffer as entered. Its arrays are split out of the unscoped buffers and
    put back; the generator register goes into the invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr4 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr4 m c) (Vr5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at its entry contents, left with its output array
    at what the write-backs leave and every other buffer as entered. Its arrays are split out of the unscoped buffers and
    put back; the generator register goes into the invariant and comes out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .region (reg1 m),
    .host (hseg hostOps2 hostOps2_sub hostOps2_fresh (W6 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the end's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩)
    (run_all m ρ)

end Cert.KernelIdeal.Hand

end
-- ==== Proof.KConv0.lean ====
/-
  The first graph-convolution layer's kernel region: what its body does at each grid point (three control cases), what its accumulator and its output buffer hold point by point, the region's proof data and
  the body obligation over them. Everything is stated at any float instance and at a parameter `V`, the buffer contents
  the region is entered from.
-/
import proofs.«109548_j58411555225976_1_alg».proof.Proof.Gen.Kernel.Launch
import proofs.«109548_j58411555225976_1_alg».proof.Proof.Gen.Kernel.Skeleton
import proofs.«109548_j58411555225976_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first convolution's kernel region, at the buffer contents `V` it is entered from

The grid is 8 row blocks by 8 column blocks, the column block `k` innermost. At `k = 0` the body zeroes its
accumulator (a scratch buffer of 1024 x 128 kept from point to point); at every point it adds to the accumulator the
product of the normalised adjacency tile with the feature tile; at `k = 7` it stores the row block of the output,
`max (acc · W + b) 0`. So three control cases occur: first column block, a middle one, the last one. -/

variable (V : (c : Dev nD) → (b : Ref sig .tc) → Buf (Elt F) ((c : Thread nD τ).loc b))

/-! ## The two branch conditions, in closed form over the grid -/

/-- "the column block is the first": the body's first `scf.if`. -/
abbrev cond0_0 (i : grid0.Coords) : Prop := (Scalar.cmpi .ne (Scalar.extui (Scalar.cmpi .eq (BitVec.ofNat 32 (i 1).val) 0#32)) 0#32) = 1#1
/-- "the column block is the last": the body's second `scf.if`. -/
abbrev cond0_1 (i : grid0.Coords) : Prop := k0_cond2 i = 1#1

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

/-- The output window is idle (nothing stored, nothing written back) away from the last column block, -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- and live at the last one. -/
theorem liveAt0_6 : ∀ t : Fin cfg0.N, cond0_1 (grid0.coords t) → cfg0.idle 6 (grid0.coords t) = false := by decide +kernel

/-! ## The input windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_in_of {c : Dev nD} (dat : Dat τ (Elt F) Unit ℕ (UR sig nD τ) ℕ cfg0 c) (w : Fin cfg0.W) (hw : (cfg0.win w).isOut = false)
    (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hA : dat.A w = V c (Pipeline.arrRef spec0 w))
    (hafter : ∀ t, (cfg0.win w).cut (cfg0.grid.coords t) (dat.after w t) = iblk0 V c w t) (t : Fin cfg0.N) (d) :
    dat.before w t d = dat.fetched w t d :=
  dat.before_in_eq_fetched w hw hlive hclip (fun t => by rw [hafter]; unfold Dat.blockOf iblk0; rw [hA]) t d

/-! ## The body's three runs -/

/-- One accumulation step: the accumulator `acc` plus the product of the normalised adjacency tile (`x0` scaled by the
    row factors `x1` and the column factors `x2`) with the feature tile `x3`. -/
abbrev step0 (x0 : Vec F S1024x1024 .f32) (x1 : Vec F S1024x1 .f32) (x2 : Vec F S1x1024 .f32) (x3 : Vec F S1024x128 .f32) (acc : Vec F S1024x128 .f32) : Vec F S1024x128 .f32 :=
  k0_pay2 x0 x1 x2 acc x3

set_option maxHeartbeats 1000000 in
/-- FIRST COLUMN BLOCK (not the last): the accumulator, found at anything, is zeroed and one step is added; the output's
    buffer is handed back as found. -/
theorem run0_first (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : cond0_0 i) (hc1 : ¬cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xi6 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step0 x0 x1 x2 x3 (k0_pay1 (F := F)))) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x128_S1024x128_0_0 y⟩)]
  sl_unfold_words
  rw [View.canon_cons_unit_zero (S := S1024x128) hz]
  simp only [View.readAt_eq_ld, hf0, hf1, hf2, hf3, View.ld_unit_zero (S := S1024x128) hz, View.ld_unit_zero (S := S1024x1024) hzA,
    View.ld_unit_zero (S := S1024x1) hzB, View.ld_unit_zero (S := S1x1024) hzC, View.readCov_unit_zero (S := S1024x128) _ hz]

set_option maxHeartbeats 1000000 in
/-- A MIDDLE COLUMN BLOCK: one step is added to the accumulator the point before left; the output's buffer is handed
    back as found. -/
theorem run0_mid (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : ¬cond0_0 i) (hc1 : ¬cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xi6 : Vec F S1024x256 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step0 x0 x1 x2 x3 xs)) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x128_S1024x128_0_0 y⟩)]
  sl_unfold_words
  rw [View.canon_cons_unit_zero (S := S1024x128) hz]
  simp only [View.readAt_eq_ld, hf0, hf1, hf2, hf3, hfs0, View.ld_unit_zero (S := S1024x128) hz, View.ld_unit_zero (S := S1024x1024) hzA,
    View.ld_unit_zero (S := S1024x1) hzB, View.ld_unit_zero (S := S1x1024) hzC, View.readCov_unit_zero (S := S1024x128) _ hz]

set_option maxHeartbeats 1000000 in
/-- THE LAST COLUMN BLOCK: one step is added to the accumulator, and the output's buffer, found at anything, is stored
    whole with the finished row block (`k0_pay3` of the accumulator, the weights `x4` and the bias `x5`). -/
theorem run0_last (c : Dev nD) (E : Set ℕ) (i : grid0.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x128 .f32) (harg5 : arg5.IsWhole)
    (arg6 : Memref sig .tc .vmem S128x256 .f32) (harg6 : arg6.IsWhole) (arg7 : Memref sig .tc .vmem S1x256 .f32) (harg7 : arg7.IsWhole)
    (arg8 : Memref sig .tc .vmem S1024x256 .f32) (harg8 : arg8.IsWhole) (arg9 : Memref sig .tc .vmem S1024x128 .f32) (harg9 : arg9.IsWhole)
    (hc0 : ¬cond0_0 i) (hc1 : cond0_1 i)
    (x0 : Vec F S1024x1024 .f32) (x1 : Vec F S1024x1 .f32) (x2 : Vec F S1x1024 .f32) (x3 : Vec F S1024x128 .f32)
    (x4 : Vec F S128x256 .f32) (x5 : Vec F S1x256 .f32) (xs : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k0_pay3 (step0 x0 x1 x2 x3 xs) x4 x5)
            ∗ owns (c : Thread nD τ) arg9 fullShare (step0 x0 x1 x2 x3 xs)) -∗ K ⟨⟩))
      ⊢ wp frame (wpE (defs₀ (F := F)) Variants.none c none) E (cc0__conv_kernel i arg2 harg2 arg3 harg3 arg4 harg4 arg5 harg5 arg6 harg6 arg7 harg7 arg8 harg8 arg9 harg9) K := by
  simp only [cc0__conv_kernel_eq_skeleton]; unfold cc0__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0
  sl_exec (disch := first | exact hc0 | exact hc1)
  sl_step
  have hz : (![0, 0] : Fin S1024x128.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  have hzO : (![0, 0] : Fin S1024x256.rank → ℕ) = fun _ => 0 := by funext a; fin_cases a <;> rfl
  have hzW : (![0, 0] : Fin S128x256.rank → ℕ) = fun _ => 0 := by funext a; fin_cases a <;> rfl
  have hzV : (![0, 0] : Fin S1x256.rank → ℕ) = fun _ => 0 := by funext a; fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hzO inb_S1024x256_S1024x256_0_0 y⟩)]
    sl_unfold_words
    rw [View.canon_cons_unit_zero (S := S1024x256) hzO]
    simp only [View.readAt_eq_ld, hf0, hf1, hf2, hf3, hf4, hf5, hfs0, View.ld_unit_zero (S := S1024x128) hz, View.ld_unit_zero (S := S1024x1024) hzA,
      View.ld_unit_zero (S := S1024x1) hzB, View.ld_unit_zero (S := S1x1024) hzC, View.ld_unit_zero (S := S128x256) hzW, View.ld_unit_zero (S := S1x256) hzV,
      View.readCov_unit_zero (S := S1024x128) _ hz]
  iexists _; isplitr
  swap; · iexact HS0
  ipureintro
  sl_unfold_words
  rw [View.read_writes_eq_canon _ _ _ (fun y => ⟨_, List.mem_cons_self, View.mem_set_unit_zero hz inb_S1024x128_S1024x128_0_0 y⟩)]
  rw [View.canon_cons_unit_zero (S := S1024x128) hz]
  simp only [View.readAt_eq_ld, hf0, hf1, hf2, hf3, hfs0, View.ld_unit_zero (S := S1024x128) hz, View.ld_unit_zero (S := S1024x1024) hzA,
    View.ld_unit_zero (S := S1024x1) hzB, View.ld_unit_zero (S := S1x1024) hzC, View.readCov_unit_zero (S := S1024x128) _ hz]

/-! ## What the accumulator and the output hold, point by point -/

/-- The accumulation step at point `t`, on that point's input blocks. -/
abbrev stepAt0 (c : Dev nD) (t : Fin cfg0.N) (acc : Vec F S1024x128 .f32) : Vec F S1024x128 .f32 :=
  step0 (iblk0 V c 0 t) (iblk0 V c 1 t) (iblk0 V c 2 t) (iblk0 V c 3 t) acc

/-- THE ACCUMULATOR after the body at position `n`: restarted from zero at the first column block of each row block,
    else one step over what the point before left. -/
def sAt0 (c : Dev nD) : (n : ℕ) → n < cfg0.N → Vec F S1024x128 .f32
  | 0, hn => stepAt0 V c ⟨0, hn⟩ (k0_pay1 (F := F))
  | n + 1, hn => stepAt0 V c ⟨n + 1, hn⟩ (if (n + 1) % 8 = 0 then k0_pay1 (F := F) else sAt0 c n (Nat.lt_of_succ_lt hn))

theorem sAt0_first (c : Dev nD) (t : Fin cfg0.N) (h0 : t.val % 8 = 0) :
    sAt0 V c t.val t.isLt = stepAt0 V c t (k0_pay1 (F := F)) := by
  obtain ⟨n, hn⟩ := t
  cases n with
  | zero => rfl
  | succ n => show stepAt0 V c ⟨n + 1, hn⟩ (if (n + 1) % 8 = 0 then _ else _) = _; rw [if_pos h0]

theorem sAt0_next (c : Dev nD) (t : Fin cfg0.N) (h0 : ¬t.val % 8 = 0) :
    sAt0 V c t.val t.isLt = stepAt0 V c t (sAt0 V c (t.val - 1) (Nat.lt_of_le_of_lt (Nat.sub_le _ _) t.isLt)) := by
  obtain ⟨n, hn⟩ := t
  cases n with
  | zero => exact absurd (Nat.zero_mod _) h0
  | succ n => show stepAt0 V c ⟨n + 1, hn⟩ (if (n + 1) % 8 = 0 then _ else _) = _; rw [if_neg h0]; rfl

/-- THE OUTPUT's staging buffer after the body at point `t` (it matters at the last column block only, where the body
    stores it and the pipeline writes it back): the finished row block from the accumulator, the weights and the bias. -/
def oAt0 (c : Dev nD) (t : Fin cfg0.N) : Vec F S1024x256 .f32 :=
  k0_pay3 (sAt0 V c t.val t.isLt) (iblk0 V c 4 t) (iblk0 V c 5 t)

/-! ## The region invariant: the accumulator at what the point before left -/

/-- The kernel's accumulator: a whole scoped buffer of its own. -/
abbrev scM0 : Memref sig .tc .vmem S1024x128 .f32 := Memref.whole cc0_scratch0
/-- The core's other scoped buffers that this region does not stage (the second convolution's), untouched here. -/
abbrev others0 (c : Dev nD) : sProp 𝕄 :=
  Pipeline.scopedRestBut (Ix := Unit) (Name := ℕ) (U := UR sig nD τ) (Lvl := ℕ) (Val := Elt F) spec0 c [cc0_scratch0]

/-- What the region is handed besides its windows: the accumulator at anything, the other scoped buffers, the generator register. -/
theorem PhiA0_eq (c : Dev nD) :
    (Pipeline.ΦA spec0 c : sProp 𝕄) = iprop(((∃ d, owns (c : Thread nD τ) scM0 fullShare d) ∗ others0 c) ∗ (∃ r, prngReg c r)) := by
  unfold Pipeline.ΦA
  rw [Pipeline.scopedRest_split_of_list spec0 c [cc0_scratch0] (by decide) (by decide)]
  simp only [scM0, owns_whole, bigSepL_singleton]
  rfl

/-- Before position `n`: at the region's entry what it is handed; afterwards the accumulator at what position `n - 1` left. -/
def PhiS0 (c : Dev nD) : (n : ℕ) → n ≤ cfg0.N → sProp 𝕄
  | 0, _ => Pipeline.ΦA spec0 c
  | n + 1, hn => iprop((owns (c : Thread nD τ) scM0 fullShare (sAt0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (sAt0 V c n hn) ∗ others0 c) ∗ (∃ r, prngReg c r)) := rfl
theorem PhiS0_pos (c : Dev nD) (n : ℕ) (h : n ≤ cfg0.N) (hz : n ≠ 0) :
    PhiS0 V c n h = iprop((owns (c : Thread nD τ) scM0 fullShare (sAt0 V c (n - 1) (by omega)) ∗ others0 c) ∗ (∃ r, prngReg c r)) := by
  cases n with
  | zero => exact absurd rfl hz
  | succ n => rfl

/-! ## The proof data -/

/-- The region's proof data on core `c`: the arrays as it finds them; after the body each input's buffer at its block,
    the output's at `oAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => oAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem PhiS0_castSucc (c : Dev nD) (t : Fin cfg0.N) : (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = oAt0 V c t := by dsimp only [dat0]

/-- Each input's current staging buffer holds its block at every point. -/
theorem before0_0 (c : Dev nD) (t : Fin cfg0.N) (d) : (dat0 V c).before 0 t d = iblk0 V c 0 t :=
  (before0_in_of V (dat0 V c) 0 rfl (fun _ => rfl) (fun _ _ _ => rfl) (A_eq0 V c 0) (fun t => by rw [after0_0]) t d).trans
    (by unfold Dat.fetched Dat.blockOf iblk0; rw [A_eq0]; rfl)
theorem before0_1 (c : Dev nD) (t : Fin cfg0.N) (d) : (dat0 V c).before 1 t d = iblk0 V c 1 t :=
  (before0_in_of V (dat0 V c) 1 rfl (fun _ => rfl) (fun _ _ _ => rfl) (A_eq0 V c 1) (fun t => by rw [after0_1]) t d).trans
    (by unfold Dat.fetched Dat.blockOf iblk0; rw [A_eq0]; rfl)
theorem before0_2 (c : Dev nD) (t : Fin cfg0.N) (d) : (dat0 V c).before 2 t d = iblk0 V c 2 t :=
  (before0_in_of V (dat0 V c) 2 rfl (fun _ => rfl) (fun _ _ _ => rfl) (A_eq0 V c 2) (fun t => by rw [after0_2]) t d).trans
    (by unfold Dat.fetched Dat.blockOf iblk0; rw [A_eq0]; rfl)
theorem before0_3 (c : Dev nD) (t : Fin cfg0.N) (d) : (dat0 V c).before 3 t d = iblk0 V c 3 t :=
  (before0_in_of V (dat0 V c) 3 rfl (fun _ => rfl) (fun _ _ _ => rfl) (A_eq0 V c 3) (fun t => by rw [after0_3]) t d).trans
    (by unfold Dat.fetched Dat.blockOf iblk0; rw [A_eq0]; rfl)
theorem before0_4 (c : Dev nD) (t : Fin cfg0.N) (d) : (dat0 V c).before 4 t d = iblk0 V c 4 t :=
  (before0_in_of V (dat0 V c) 4 rfl (fun _ => rfl) (fun _ _ _ => rfl) (A_eq0 V c 4) (fun t => by rw [after0_4]) t d).trans
    (by unfold Dat.fetched Dat.blockOf iblk0; rw [A_eq0]; rfl)
theorem before0_5 (c : Dev nD) (t : Fin cfg0.N) (d) : (dat0 V c).before 5 t d = iblk0 V c 5 t :=
  (before0_in_of V (dat0 V c) 5 rfl (fun _ => rfl) (fun _ _ _ => rfl) (A_eq0 V c 5) (fun t => by rw [after0_5]) t d).trans
    (by unfold Dat.fetched Dat.blockOf iblk0; rw [A_eq0]; rfl)

/-! ## The body obligation -/

theorem leaves0_0 (c : Dev nD) (t : Fin cfg0.N) : (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) : (dat0 V c).leavesExact 1 t = owns (c : Thread nD τ) (st0_1 t) fullShare (iblk0 V c 1 t) := by
  unfold Dat.leavesExact; rw [show cfg0.idle 1 (cfg0.grid.coords t) = false from rfl, after0_1]
theorem leaves0_2 (c : Dev nD) (t : Fin cfg0.N) : (dat0 V c).leavesExact 2 t = owns (c : Thread nD τ) (st0_2 t) fullShare (iblk0 V c 2 t) := by
  unfold Dat.leavesExact; rw [show cfg0.idle 2 (cfg0.grid.coords t) = false from rfl, after0_2]
theorem leaves0_3 (c : Dev nD) (t : Fin cfg0.N) : (dat0 V c).leavesExact 3 t = owns (c : Thread nD τ) (st0_3 t) fullShare (iblk0 V c 3 t) := by
  unfold Dat.leavesExact; rw [show cfg0.idle 3 (cfg0.grid.coords t) = false from rfl, after0_3]
theorem leaves0_4 (c : Dev nD) (t : Fin cfg0.N) : (dat0 V c).leavesExact 4 t = owns (c : Thread nD τ) (st0_4 t) fullShare (iblk0 V c 4 t) := by
  unfold Dat.leavesExact; rw [show cfg0.idle 4 (cfg0.grid.coords t) = false from rfl, after0_4]
theorem leaves0_5 (c : Dev nD) (t : Fin cfg0.N) : (dat0 V c).leavesExact 5 t = owns (c : Thread nD τ) (st0_5 t) fullShare (iblk0 V c 5 t) := by
  unfold Dat.leavesExact; rw [show cfg0.idle 5 (cfg0.grid.coords t) = false from rfl, after0_5]
theorem leaves0_6_live (c : Dev nD) (t : Fin cfg0.N) (h : cond0_1 (grid0.coords t)) :
    (dat0 V c).leavesExact 6 t = owns (c : Thread nD τ) (st0_6 t) fullShare (oAt0 V c t) := by
  unfold Dat.leavesExact; rw [liveAt0_6 t h, after0_6]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

set_option maxHeartbeats 4800000 in
/-- The body at any point: the inputs' buffers hold their blocks; the closed forms say which of the three runs applies;
    the invariant hands the run the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 64 := lt_of_lt_of_eq t.isLt (show cfg0.N = 64 from N_0)
  by_cases h0 : t.val % 8 = 0
  · by_cases h1 : t.val % 8 = 7
    · exfalso; omega
    · rw [Dat.leavesExact_idle (dat0 V c) 6 t (idleAt0_6 t (fun h => h1 ((hcond0_1 t).mp h))) (noFlush0_6 t (fun h => h1 ((hcond0_1 t).mp h)))]
      rw [sAt0_first V c t h0]
      by_cases hz : t.val = 0
      ·
        rw [PhiS0_castSucc V c t, PhiS0_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_first c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_first c Set.univ (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves0_6_live V c t ((hcond0_1 t).mpr h1)]
      unfold oAt0
      rw [sAt0_next V c t h0]
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_last c Set.univ (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [Dat.leavesExact_idle (dat0 V c) 6 t (idleAt0_6 t (fun h => h1 ((hcond0_1 t).mp h))) (noFlush0_6 t (fun h => h1 ((hcond0_1 t).mp h)))]
      rw [sAt0_next V c t h0]
      ·
        rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run0_mid c Set.univ (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hoth⟩, Hg⟩
  isplitl [HS0 Hoth]
  · isplitl [HS0]; · iexists _; iexact HS0
    iexact Hoth
  iexact Hg

end Cert.Kernel.Hand

end
-- ==== Proof.KConv1.lean ====
/-
  The second graph-convolution layer's kernel region: what its body does at each grid point (three control cases), what its accumulator and its output buffer hold point by point, the region's proof data and
  the body obligation over them. Everything is stated at any float instance and at a parameter `V`, the buffer contents
  the region is entered from.
-/
import proofs.«109548_j58411555225976_1_alg».proof.Proof.Gen.Kernel.Launch
import proofs.«109548_j58411555225976_1_alg».proof.Proof.Gen.Kernel.Skeleton
import proofs.«109548_j58411555225976_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The second convolution's kernel region, at the buffer contents `V` it is entered from

The grid is 8 row blocks by 8 column blocks, the column block `k` innermost. At `k = 0` the body zeroes its
accumulator (a scratch buffer of 1024 x 256 kept from point to point); at every point it adds to the accumulator the
product of the normalised adjacency tile with the feature tile; at `k = 7` it stores the row block of the output,
`acc · W + b`. So three control cases occur: first column block, a middle one, the last one. -/

variable (V : (c : Dev nD) → (b : Ref sig .tc) → Buf (Elt F) ((c : Thread nD τ).loc b))

/-! ## The two branch conditions, in closed form over the grid -/

/-- "the column block is the first": the body's first `scf.if`. -/
abbrev cond1_0 (i : grid1.Coords) : Prop := (Scalar.cmpi .ne (Scalar.extui (Scalar.cmpi .eq (BitVec.ofNat 32 (i 1).val) 0#32)) 0#32) = 1#1
/-- "the column block is the last": the body's second `scf.if`. -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The output window is idle (nothing stored, nothing written back) away from the last column block, -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- and live at the last one. -/
theorem liveAt1_6 : ∀ t : Fin cfg1.N, cond1_1 (grid1.coords t) → cfg1.idle 6 (grid1.coords t) = false := by decide +kernel

/-! ## The input windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_in_of {c : Dev nD} (dat : Dat τ (Elt F) Unit ℕ (UR sig nD τ) ℕ cfg1 c) (w : Fin cfg1.W) (hw : (cfg1.win w).isOut = false)
    (hlive : ∀ i, cfg1.idle w i = false)
    (hclip : ∀ t t' : Fin cfg1.N, (cfg1.win w).index t = (cfg1.win w).index t' → (cfg1.win w).clip (cfg1.grid.coords t) = (cfg1.win w).clip (cfg1.grid.coords t'))
    (hA : dat.A w = V c (Pipeline.arrRef spec1 w))
    (hafter : ∀ t, (cfg1.win w).cut (cfg1.grid.coords t) (dat.after w t) = iblk1 V c w t) (t : Fin cfg1.N) (d) :
    dat.before w t d = dat.fetched w t d :=
  dat.before_in_eq_fetched w hw hlive hclip (fun t => by rw [hafter]; unfold Dat.blockOf iblk1; rw [hA]) t d

/-! ## The body's three runs -/

/-- One accumulation step: the accumulator `acc` plus the product of the normalised adjacency tile (`x0` scaled by the
    row factors `x1` and the column factors `x2`) with the feature tile `x3`. -/
abbrev step1 (x0 : Vec F S1024x1024 .f32) (x1 : Vec F S1024x1 .f32) (x2 : Vec F S1x1024 .f32) (x3 : Vec F S1024x256 .f32) (acc : Vec F S1024x256 .f32) : Vec F S1024x256 .f32 :=
  k1_pay2 x0 x1 x2 acc x3

set_option maxHeartbeats 1000000 in
/-- FIRST COLUMN BLOCK (not the last): the accumulator, found at anything, is zeroed and one step is added; the output's
    buffer is handed back as found. -/
theorem run1_first (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : cond1_0 i) (hc1 : ¬cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xi6 : Vec F S1024x10 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step1 x0 x1 x2 x3 (k1_pay1 (F := F)))) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x256_S1024x256_0_0 y⟩)]
  sl_unfold_words
  rw [View.canon_cons_unit_zero (S := S1024x256) hz]
  simp only [View.readAt_eq_ld, hf0, hf1, hf2, hf3, View.ld_unit_zero (S := S1024x256) hz, View.ld_unit_zero (S := S1024x1024) hzA,
    View.ld_unit_zero (S := S1024x1) hzB, View.ld_unit_zero (S := S1x1024) hzC, View.readCov_unit_zero (S := S1024x256) _ hz]

set_option maxHeartbeats 1000000 in
/-- A MIDDLE COLUMN BLOCK: one step is added to the accumulator the point before left; the output's buffer is handed
    back as found. -/
theorem run1_mid (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : ¬cond1_0 i) (hc1 : ¬cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xi6 : Vec F S1024x10 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare xi6
            ∗ owns (c : Thread nD τ) arg9 fullShare (step1 x0 x1 x2 x3 xs)) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs0
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact HS0
  ipureintro
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  rw [View.read_writes_eq_canon _ _ _ (fun y => ⟨_, List.mem_cons_self, View.mem_set_unit_zero hz inb_S1024x256_S1024x256_0_0 y⟩)]
  sl_unfold_words
  rw [View.canon_cons_unit_zero (S := S1024x256) hz]
  simp only [View.readAt_eq_ld, hf0, hf1, hf2, hf3, hfs0, View.ld_unit_zero (S := S1024x256) hz, View.ld_unit_zero (S := S1024x1024) hzA,
    View.ld_unit_zero (S := S1024x1) hzB, View.ld_unit_zero (S := S1x1024) hzC, View.readCov_unit_zero (S := S1024x256) _ hz]

set_option maxHeartbeats 1000000 in
/-- THE LAST COLUMN BLOCK: one step is added to the accumulator, and the output's buffer, found at anything, is stored
    whole with the finished row block (`k1_pay3` of the accumulator, the weights `x4` and the bias `x5`). -/
theorem run1_last (c : Dev nD) (E : Set ℕ) (i : grid1.Coords)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S1024x256 .f32) (harg5 : arg5.IsWhole)
    (arg6 : Memref sig .tc .vmem S256x10 .f32) (harg6 : arg6.IsWhole) (arg7 : Memref sig .tc .vmem S1x10 .f32) (harg7 : arg7.IsWhole)
    (arg8 : Memref sig .tc .vmem S1024x10 .f32) (harg8 : arg8.IsWhole) (arg9 : Memref sig .tc .vmem S1024x256 .f32) (harg9 : arg9.IsWhole)
    (hc0 : ¬cond1_0 i) (hc1 : cond1_1 i)
    (x0 : Vec F S1024x1024 .f32) (x1 : Vec F S1024x1 .f32) (x2 : Vec F S1x1024 .f32) (x3 : Vec F S1024x256 .f32)
    (x4 : Vec F S256x10 .f32) (x5 : Vec F S1x10 .f32) (xs : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (k1_pay3 (step1 x0 x1 x2 x3 xs) x4 x5)
            ∗ owns (c : Thread nD τ) arg9 fullShare (step1 x0 x1 x2 x3 xs)) -∗ K ⟨⟩))
      ⊢ wp frame (wpE (defs₀ (F := F)) Variants.none c none) E (cc1__conv_kernel i arg2 harg2 arg3 harg3 arg4 harg4 arg5 harg5 arg6 harg6 arg7 harg7 arg8 harg8 arg9 harg9) K := by
  simp only [cc1__conv_kernel_eq_skeleton]; unfold cc1__conv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs0
  sl_exec (disch := first | exact hc0 | exact hc1)
  sl_step
  have hz : (![0, 0] : Fin S1024x256.rank → ℕ) = fun _ => 0 := by funext a; fin_cases a <;> rfl
  have hzA : (![0, 0] : Fin S1024x1024.rank → ℕ) = fun _ => 0 := by funext a; fin_cases a <;> rfl
  have hzB : (![0, 0] : Fin S1024x1.rank → ℕ) = fun _ => 0 := by funext a; fin_cases a <;> rfl
  have hzC : (![0, 0] : Fin S1x1024.rank → ℕ) = fun _ => 0 := by funext a; fin_cases a <;> rfl
  have hzO : (![0, 0] : Fin S1024x10.rank → ℕ) = fun _ => 0 := by funext a; fin_cases a <;> rfl
  have hzW : (![0, 0] : Fin S256x10.rank → ℕ) = fun _ => 0 := by funext a; fin_cases a <;> rfl
  have hzV : (![0, 0] : Fin S1x10.rank → ℕ) = fun _ => 0 := by funext a; fin_cases a <;> rfl
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    rw [View.read_writes_eq_canon _ _ _ (fun y => ⟨_, List.mem_cons_self, View.mem_set_unit_zero hzO inb_S1024x10_S1024x10_0_0 y⟩)]
    sl_unfold_words
    rw [View.canon_cons_unit_zero (S := S1024x10) hzO]
    simp only [View.readAt_eq_ld, hf0, hf1, hf2, hf3, hf4, hf5, hfs0, View.ld_unit_zero (S := S1024x256) hz, View.ld_unit_zero (S := S1024x1024) hzA,
      View.ld_unit_zero (S := S1024x1) hzB, View.ld_unit_zero (S := S1x1024) hzC, View.ld_unit_zero (S := S256x10) hzW, View.ld_unit_zero (S := S1x10) hzV,
      View.readCov_unit_zero (S := S1024x256) _ hz]
  iexists _; isplitr
  swap; · iexact HS0
  ipureintro
  sl_unfold_words
  rw [View.read_writes_eq_canon _ _ _ (fun y => ⟨_, List.mem_cons_self, View.mem_set_unit_zero hz inb_S1024x256_S1024x256_0_0 y⟩)]
  rw [View.canon_cons_unit_zero (S := S1024x256) hz]
  simp only [View.readAt_eq_ld, hf0, hf1, hf2, hf3, hfs0, View.ld_unit_zero (S := S1024x256) hz, View.ld_unit_zero (S := S1024x1024) hzA,
    View.ld_unit_zero (S := S1024x1) hzB, View.ld_unit_zero (S := S1x1024) hzC, View.readCov_unit_zero (S := S1024x256) _ hz]

/-! ## What the accumulator and the output hold, point by point -/

/-- The accumulation step at point `t`, on that point's input blocks. -/
abbrev stepAt1 (c : Dev nD) (t : Fin cfg1.N) (acc : Vec F S1024x256 .f32) : Vec F S1024x256 .f32 :=
  step1 (iblk1 V c 0 t) (iblk1 V c 1 t) (iblk1 V c 2 t) (iblk1 V c 3 t) acc

/-- THE ACCUMULATOR after the body at position `n`: restarted from zero at the first column block of each row block,
    else one step over what the point before left. -/
def sAt1 (c : Dev nD) : (n : ℕ) → n < cfg1.N → Vec F S1024x256 .f32
  | 0, hn => stepAt1 V c ⟨0, hn⟩ (k1_pay1 (F := F))
  | n + 1, hn => stepAt1 V c ⟨n + 1, hn⟩ (if (n + 1) % 8 = 0 then k1_pay1 (F := F) else sAt1 c n (Nat.lt_of_succ_lt hn))

theorem sAt1_first (c : Dev nD) (t : Fin cfg1.N) (h0 : t.val % 8 = 0) :
    sAt1 V c t.val t.isLt = stepAt1 V c t (k1_pay1 (F := F)) := by
  obtain ⟨n, hn⟩ := t
  cases n with
  | zero => rfl
  | succ n => show stepAt1 V c ⟨n + 1, hn⟩ (if (n + 1) % 8 = 0 then _ else _) = _; rw [if_pos h0]

theorem sAt1_next (c : Dev nD) (t : Fin cfg1.N) (h0 : ¬t.val % 8 = 0) :
    sAt1 V c t.val t.isLt = stepAt1 V c t (sAt1 V c (t.val - 1) (Nat.lt_of_le_of_lt (Nat.sub_le _ _) t.isLt)) := by
  obtain ⟨n, hn⟩ := t
  cases n with
  | zero => exact absurd (Nat.zero_mod _) h0
  | succ n => show stepAt1 V c ⟨n + 1, hn⟩ (if (n + 1) % 8 = 0 then _ else _) = _; rw [if_neg h0]; rfl

/-- THE OUTPUT's staging buffer after the body at point `t` (it matters at the last column block only, where the body
    stores it and the pipeline writes it back): the finished row block from the accumulator, the weights and the bias. -/
def oAt1 (c : Dev nD) (t : Fin cfg1.N) : Vec F S1024x10 .f32 :=
  k1_pay3 (sAt1 V c t.val t.isLt) (iblk1 V c 4 t) (iblk1 V c 5 t)

/-! ## The region invariant: the accumulator at what the point before left -/

/-- The kernel's accumulator: a whole scoped buffer of its own. -/
abbrev scM1 : Memref sig .tc .vmem S1024x256 .f32 := Memref.whole cc1_scratch0
/-- The core's other scoped buffers that this region does not stage (the first convolution's), untouched here. -/
abbrev others1 (c : Dev nD) : sProp 𝕄 :=
  Pipeline.scopedRestBut (Ix := Unit) (Name := ℕ) (U := UR sig nD τ) (Lvl := ℕ) (Val := Elt F) spec1 c [cc1_scratch0]

/-- What the region is handed besides its windows: the accumulator at anything, the other scoped buffers, the generator register. -/
theorem PhiA1_eq (c : Dev nD) :
    (Pipeline.ΦA spec1 c : sProp 𝕄) = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole, bigSepL_singleton]
  rfl

/-- Before position `n`: at the region's entry what it is handed; afterwards the accumulator at what position `n - 1` left. -/
def PhiS1 (c : Dev nD) : (n : ℕ) → n ≤ cfg1.N → sProp 𝕄
  | 0, _ => Pipeline.ΦA spec1 c
  | n + 1, hn => iprop((owns (c : Thread nD τ) scM1 fullShare (sAt1 V c n hn) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (sAt1 V c n hn) ∗ others1 c) ∗ (∃ r, prngReg c r)) := rfl
theorem PhiS1_pos (c : Dev nD) (n : ℕ) (h : n ≤ cfg1.N) (hz : n ≠ 0) :
    PhiS1 V c n h = iprop((owns (c : Thread nD τ) scM1 fullShare (sAt1 V c (n - 1) (by omega)) ∗ others1 c) ∗ (∃ r, prngReg c r)) := by
  cases n with
  | zero => exact absurd rfl hz
  | succ n => rfl

/-! ## The proof data -/

/-- The region's proof data on core `c`: the arrays as it finds them; after the body each input's buffer at its block,
    the output's at `oAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS1_castSucc (c : Dev nD) (t : Fin cfg1.N) : (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oAt1 V c t := by dsimp only [dat1]

/-- Each input's current staging buffer holds its block at every point. -/
theorem before1_0 (c : Dev nD) (t : Fin cfg1.N) (d) : (dat1 V c).before 0 t d = iblk1 V c 0 t :=
  (before1_in_of V (dat1 V c) 0 rfl (fun _ => rfl) (fun _ _ _ => rfl) (A_eq1 V c 0) (fun t => by rw [after1_0]) t d).trans
    (by unfold Dat.fetched Dat.blockOf iblk1; rw [A_eq1]; rfl)
theorem before1_1 (c : Dev nD) (t : Fin cfg1.N) (d) : (dat1 V c).before 1 t d = iblk1 V c 1 t :=
  (before1_in_of V (dat1 V c) 1 rfl (fun _ => rfl) (fun _ _ _ => rfl) (A_eq1 V c 1) (fun t => by rw [after1_1]) t d).trans
    (by unfold Dat.fetched Dat.blockOf iblk1; rw [A_eq1]; rfl)
theorem before1_2 (c : Dev nD) (t : Fin cfg1.N) (d) : (dat1 V c).before 2 t d = iblk1 V c 2 t :=
  (before1_in_of V (dat1 V c) 2 rfl (fun _ => rfl) (fun _ _ _ => rfl) (A_eq1 V c 2) (fun t => by rw [after1_2]) t d).trans
    (by unfold Dat.fetched Dat.blockOf iblk1; rw [A_eq1]; rfl)
theorem before1_3 (c : Dev nD) (t : Fin cfg1.N) (d) : (dat1 V c).before 3 t d = iblk1 V c 3 t :=
  (before1_in_of V (dat1 V c) 3 rfl (fun _ => rfl) (fun _ _ _ => rfl) (A_eq1 V c 3) (fun t => by rw [after1_3]) t d).trans
    (by unfold Dat.fetched Dat.blockOf iblk1; rw [A_eq1]; rfl)
theorem before1_4 (c : Dev nD) (t : Fin cfg1.N) (d) : (dat1 V c).before 4 t d = iblk1 V c 4 t :=
  (before1_in_of V (dat1 V c) 4 rfl (fun _ => rfl) (fun _ _ _ => rfl) (A_eq1 V c 4) (fun t => by rw [after1_4]) t d).trans
    (by unfold Dat.fetched Dat.blockOf iblk1; rw [A_eq1]; rfl)
theorem before1_5 (c : Dev nD) (t : Fin cfg1.N) (d) : (dat1 V c).before 5 t d = iblk1 V c 5 t :=
  (before1_in_of V (dat1 V c) 5 rfl (fun _ => rfl) (fun _ _ _ => rfl) (A_eq1 V c 5) (fun t => by rw [after1_5]) t d).trans
    (by unfold Dat.fetched Dat.blockOf iblk1; rw [A_eq1]; rfl)

/-! ## The body obligation -/

theorem leaves1_0 (c : Dev nD) (t : Fin cfg1.N) : (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) : (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) : (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) : (dat1 V c).leavesExact 3 t = owns (c : Thread nD τ) (st1_3 t) fullShare (iblk1 V c 3 t) := by
  unfold Dat.leavesExact; rw [show cfg1.idle 3 (cfg1.grid.coords t) = false from rfl, after1_3]
theorem leaves1_4 (c : Dev nD) (t : Fin cfg1.N) : (dat1 V c).leavesExact 4 t = owns (c : Thread nD τ) (st1_4 t) fullShare (iblk1 V c 4 t) := by
  unfold Dat.leavesExact; rw [show cfg1.idle 4 (cfg1.grid.coords t) = false from rfl, after1_4]
theorem leaves1_5 (c : Dev nD) (t : Fin cfg1.N) : (dat1 V c).leavesExact 5 t = owns (c : Thread nD τ) (st1_5 t) fullShare (iblk1 V c 5 t) := by
  unfold Dat.leavesExact; rw [show cfg1.idle 5 (cfg1.grid.coords t) = false from rfl, after1_5]
theorem leaves1_6_live (c : Dev nD) (t : Fin cfg1.N) (h : cond1_1 (grid1.coords t)) :
    (dat1 V c).leavesExact 6 t = owns (c : Thread nD τ) (st1_6 t) fullShare (oAt1 V c t) := by
  unfold Dat.leavesExact; rw [liveAt1_6 t h, after1_6]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the inputs' buffers hold their blocks; the closed forms say which of the three runs applies;
    the invariant hands the run the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 6 t (idleAt1_6 t (fun h => h1 ((hcond1_1 t).mp h))) (noFlush1_6 t (fun h => h1 ((hcond1_1 t).mp h)))]
      rw [sAt1_first V c t h0]
      by_cases hz : t.val = 0
      ·
        rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_first c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun h => h0 (by rw [h])
    by_cases h1 : t.val % 8 = 7
    · rw [leaves1_6_live V c t ((hcond1_1 t).mpr h1)]
      unfold oAt1
      rw [sAt1_next V c t h0]
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_last c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexact H6
    · rw [Dat.leavesExact_idle (dat1 V c) 6 t (idleAt1_6 t (fun h => h1 ((hcond1_1 t).mp h))) (noFlush1_6 t (fun h => h1 ((hcond1_1 t).mp h)))]
      rw [sAt1_next V c t h0]
      ·
        rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
        iapply (run1_mid c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, HS0⟩
        isplitl [HS0 Hoth Hg]
        · isplitl [HS0 Hoth]
          · isplitl [HS0]; · iexact HS0
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hoth⟩, Hg⟩
  isplitl [HS0 Hoth]
  · isplitl [HS0]; · iexists _; iexact HS0
    iexact Hoth
  iexact Hg

end Cert.Kernel.Hand

end
-- ==== Proof.KRun.lean ====
/-
  The run of the whole program: the buffer contents at each boundary between @main's items (a host stretch rewrites
  its results; a kernel region rewrites its output array with what its write-backs leave), each kernel region as a
  segment over those contents, and the launch. Its conclusion names what EVERY unscoped buffer holds at the end; the
  frame claim reads the eight arguments there, a value claim reads the result.
-/
import proofs.«109548_j58411555225976_1_alg».proof.Proof.KConv0
import proofs.«109548_j58411555225976_1_alg».proof.Proof.KConv1
import proofs.«109548_j58411555225976_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0's entry contents, read at the TensorCore's references: after the four host stretches. -/
abbrev Vr4 : (c : Dev nD) → (b : Ref sig .tc) → Buf (Elt F) ((c : Thread nD τ).loc b) := fun c b => V4 m c b
/-- What region 0 leaves in its output array: the write-backs of its 64 points folded over the entry contents. -/
def arr0 (c : Dev nD) : Buf (Elt F) ((c : Thread nD τ).loc main_v6) := (dat0 (Vr4 m) c).arrAt 6 cfg0.N
/-- After region 0: its output array at `arr0`, every other buffer as entered. -/
def W5 (c : Dev nD) : Valuation τ sig (Elt F) := Function.update (V4 m c) main_v6 (arr0 m c)
abbrev Vr5 : (c : Dev nD) → (b : Ref sig .tc) → Buf (Elt F) ((c : Thread nD τ).loc b) := fun c b => W5 m c b
/-- What region 1 leaves in its output array. -/
def arr1 (c : Dev nD) : Buf (Elt F) ((c : Thread nD τ).loc main_v7) := (dat1 (Vr5 m) c).arrAt 6 cfg1.N
/-- After region 1. -/
def W6 (c : Dev nD) : Valuation τ sig (Elt F) := Function.update (W5 m c) main_v7 (arr1 m c)
abbrev Vr6 : (c : Dev nD) → (b : Ref sig .tc) → Buf (Elt F) ((c : Thread nD τ).loc b) := fun c b => W6 m c b
/-- After the last host stretch: the end. -/
abbrev W7 (c : Dev nD) : Valuation τ sig (Elt F) := StableHlo.after hostOps2 (W6 m c)

theorem W5_of (c : Dev nD) (r : Ref sig .tc) (h : r ≠ main_v6) : W5 m c r = V4 m c r := by
  unfold W5; exact Function.update_of_ne (StableHlo.devRef_ne_of_ne h) _ _
theorem W5_v6 (c : Dev nD) : W5 m c main_v6 = arr0 m c := by
  unfold W5; exact Function.update_self _ _ _
theorem W6_of (c : Dev nD) (r : Ref sig .tc) (h : r ≠ main_v7) : W6 m c r = W5 m c r := by
  unfold W6; exact Function.update_of_ne (StableHlo.devRef_ne_of_ne h) _ _
theorem W6_v7 (c : Dev nD) : W6 m c main_v7 = arr1 m c := by
  unfold W6; exact Function.update_self _ _ _
theorem W7_of (c : Dev nD) (r : Ref sig .tc) (h : r ∉ hostOps2_W) : W7 m c r = W6 m c r :=
  StableHlo.after_of_writes_sub hostOps2 _ hostOps2_writes h

/-- At region 0's exit each of its arrays holds what the pipeline leaves, -/
theorem hF0 (c : Dev nD) : ∀ w : Fin cfg0.W, (dat0 (Vr4 m) c).arrAt w cfg0.N = Vr5 m c (Pipeline.arrRef spec0 w)
  | ⟨0, _⟩ => ((dat0 _ c).arrAt_in 0 rfl _).trans ((A_eq0 _ c 0).trans (W5_of m c _ (by decide)).symm)
  | ⟨1, _⟩ => ((dat0 _ c).arrAt_in 1 rfl _).trans ((A_eq0 _ c 1).trans (W5_of m c _ (by decide)).symm)
  | ⟨2, _⟩ => ((dat0 _ c).arrAt_in 2 rfl _).trans ((A_eq0 _ c 2).trans (W5_of m c _ (by decide)).symm)
  | ⟨3, _⟩ => ((dat0 _ c).arrAt_in 3 rfl _).trans ((A_eq0 _ c 3).trans (W5_of m c _ (by decide)).symm)
  | ⟨4, _⟩ => ((dat0 _ c).arrAt_in 4 rfl _).trans ((A_eq0 _ c 4).trans (W5_of m c _ (by decide)).symm)
  | ⟨5, _⟩ => ((dat0 _ c).arrAt_in 5 rfl _).trans ((A_eq0 _ c 5).trans (W5_of m c _ (by decide)).symm)
  | ⟨6, _⟩ => (W5_v6 m c).symm
/-- and every other buffer what it held at entry. -/
theorem hrest0 (c : Dev nD) : ∀ b, b ∉ Finset.univ.image (Pipeline.arrRef spec0) → Vr5 m c b = Vr4 m c b :=
  fun b hb => W5_of m c b fun e => hb (Finset.mem_image.mpr ⟨6, Finset.mem_univ _, e.symm⟩)
theorem hF1 (c : Dev nD) : ∀ w : Fin cfg1.W, (dat1 (Vr5 m) c).arrAt w cfg1.N = Vr6 m c (Pipeline.arrRef spec1 w)
  | ⟨0, _⟩ => ((dat1 _ c).arrAt_in 0 rfl _).trans ((A_eq1 _ c 0).trans (W6_of m c _ (by decide)).symm)
  | ⟨1, _⟩ => ((dat1 _ c).arrAt_in 1 rfl _).trans ((A_eq1 _ c 1).trans (W6_of m c _ (by decide)).symm)
  | ⟨2, _⟩ => ((dat1 _ c).arrAt_in 2 rfl _).trans ((A_eq1 _ c 2).trans (W6_of m c _ (by decide)).symm)
  | ⟨3, _⟩ => ((dat1 _ c).arrAt_in 3 rfl _).trans ((A_eq1 _ c 3).trans (W6_of m c _ (by decide)).symm)
  | ⟨4, _⟩ => ((dat1 _ c).arrAt_in 4 rfl _).trans ((A_eq1 _ c 4).trans (W6_of m c _ (by decide)).symm)
  | ⟨5, _⟩ => ((dat1 _ c).arrAt_in 5 rfl _).trans ((A_eq1 _ c 5).trans (W6_of m c _ (by decide)).symm)
  | ⟨6, _⟩ => (W6_v7 m c).symm
theorem hrest1 (c : Dev nD) : ∀ b, b ∉ Finset.univ.image (Pipeline.arrRef spec1) → Vr6 m c b = Vr5 m c b :=
  fun b hb => W6_of m c b fun e => hb (Finset.mem_image.mpr ⟨6, Finset.mem_univ _, e.symm⟩)

/-! ### The arguments end as launched: no host operation writes one and no region's output array is one -/

theorem W7_main_arg0 (c : Dev nD) : W7 m c main_arg0 = m ((c : Thread nD τ).loc main_arg0) :=
  (W7_of m c main_arg0 (by decide)).trans <| (W6_of m c main_arg0 (by decide)).trans <| (W5_of m c main_arg0 (by decide)).trans <| (V4_of m c main_arg0 (by decide)).trans <| (V3_of m c main_arg0 (by decide)).trans <| (V2_of m c main_arg0 (by decide)).trans <| (V1_of m c main_arg0 (by decide)).trans rfl
theorem W7_main_arg1 (c : Dev nD) : W7 m c main_arg1 = m ((c : Thread nD τ).loc main_arg1) :=
  (W7_of m c main_arg1 (by decide)).trans <| (W6_of m c main_arg1 (by decide)).trans <| (W5_of m c main_arg1 (by decide)).trans <| (V4_of m c main_arg1 (by decide)).trans <| (V3_of m c main_arg1 (by decide)).trans <| (V2_of m c main_arg1 (by decide)).trans <| (V1_of m c main_arg1 (by decide)).trans rfl
theorem W7_main_arg2 (c : Dev nD) : W7 m c main_arg2 = m ((c : Thread nD τ).loc main_arg2) :=
  (W7_of m c main_arg2 (by decide)).trans <| (W6_of m c main_arg2 (by decide)).trans <| (W5_of m c main_arg2 (by decide)).trans <| (V4_of m c main_arg2 (by decide)).trans <| (V3_of m c main_arg2 (by decide)).trans <| (V2_of m c main_arg2 (by decide)).trans <| (V1_of m c main_arg2 (by decide)).trans rfl
theorem W7_main_arg3 (c : Dev nD) : W7 m c main_arg3 = m ((c : Thread nD τ).loc main_arg3) :=
  (W7_of m c main_arg3 (by decide)).trans <| (W6_of m c main_arg3 (by decide)).trans <| (W5_of m c main_arg3 (by decide)).trans <| (V4_of m c main_arg3 (by decide)).trans <| (V3_of m c main_arg3 (by decide)).trans <| (V2_of m c main_arg3 (by decide)).trans <| (V1_of m c main_arg3 (by decide)).trans rfl
theorem W7_main_arg4 (c : Dev nD) : W7 m c main_arg4 = m ((c : Thread nD τ).loc main_arg4) :=
  (W7_of m c main_arg4 (by decide)).trans <| (W6_of m c main_arg4 (by decide)).trans <| (W5_of m c main_arg4 (by decide)).trans <| (V4_of m c main_arg4 (by decide)).trans <| (V3_of m c main_arg4 (by decide)).trans <| (V2_of m c main_arg4 (by decide)).trans <| (V1_of m c main_arg4 (by decide)).trans rfl
theorem W7_main_arg5 (c : Dev nD) : W7 m c main_arg5 = m ((c : Thread nD τ).loc main_arg5) :=
  (W7_of m c main_arg5 (by decide)).trans <| (W6_of m c main_arg5 (by decide)).trans <| (W5_of m c main_arg5 (by decide)).trans <| (V4_of m c main_arg5 (by decide)).trans <| (V3_of m c main_arg5 (by decide)).trans <| (V2_of m c main_arg5 (by decide)).trans <| (V1_of m c main_arg5 (by decide)).trans rfl
theorem W7_main_arg6 (c : Dev nD) : W7 m c main_arg6 = m ((c : Thread nD τ).loc main_arg6) :=
  (W7_of m c main_arg6 (by decide)).trans <| (W6_of m c main_arg6 (by decide)).trans <| (W5_of m c main_arg6 (by decide)).trans <| (V4_of m c main_arg6 (by decide)).trans <| (V3_of m c main_arg6 (by decide)).trans <| (V2_of m c main_arg6 (by decide)).trans <| (V1_of m c main_arg6 (by decide)).trans rfl
theorem W7_main_arg7 (c : Dev nD) : W7 m c main_arg7 = m ((c : Thread nD τ).loc main_arg7) :=
  (W7_of m c main_arg7 (by decide)).trans <| (W6_of m c main_arg7 (by decide)).trans <| (W5_of m c main_arg7 (by decide)).trans <| (V4_of m c main_arg7 (by decide)).trans <| (V3_of m c main_arg7 (by decide)).trans <| (V2_of m c main_arg7 (by decide)).trans <| (V1_of m c main_arg7 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr4 m) c
  | ⟨1, _⟩ => fun c => dat1 (Vr5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end's contents, the generator register at some state. -/
abbrev Tₙ (c : Dev nD) : sProp 𝕄 := iprop(StableHlo.held (c : Thread nD τ) (Pipeline.ucRefs τ sig) (W7 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 over the thread state: entered from every unscoped buffer at its entry contents, left with its output array
    at what the write-backs leave and every other buffer as entered. Its arrays are split out of the unscoped buffers and
    put back; the generator register goes into the invariant and comes out; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr4 m) c).loose
  hwaits := Pipeline.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (Vr4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vr4 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr4 m c) (Vr5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at its entry contents, left with its output array
    at what the write-backs leave and every other buffer as entered. Its arrays are split out of the unscoped buffers and
    put back; the generator register goes into the invariant and comes out; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (Vr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr5 m c) (Vr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m),
    .region (reg1 m),
    .host (hseg hostOps2 hostOps2_sub hostOps2_fresh (W6 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the end's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m c) ∗ R c)
          ⊢ iprop(Tₙ m c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩)
    (run_all m ρ)

end Cert.Kernel.Hand

end
-- ==== Proof.Spec.lean ====
/-
  The mathematics both programs compute, over the extended reals, as functions of whole arrays.

  A graph-convolution layer takes the adjacency matrix `A`, the degree factors as a column `dr` and as a row `dc`,
  the node features `X`, a weight matrix `W` and a bias row `b`, and returns, at entry (r, j),
      post ( (∑ q, (∑ c, (A r c · dr r · dc c) · X c q) · W q j) + b j ),
  `post` being `max · 0` for the first layer and the identity for the second. The kernel forms the inner sum over the
  8192 columns `c` eight blocks of 1024 at a time, adding each block's partial sum to an accumulator that starts at
  zero; the reference forms it at once. Addition of extended reals is commutative and associative and zero is neutral,
  so the two are equal with no finiteness assumption: `blockFold_eq`.
-/
import Idealize.ShloMosaic.Lib.ValueIdx
import Idealize.ShloMosaic.PureOps.Ideal.Laws

noncomputable section

namespace Cert.Spec

open Idealize.ShloMosaic Idealize.ShloMosaic.ValueIdx

/-- A matrix of extended reals with `m` rows and `n` columns; a vector of length `n`. -/
abbrev Mat (m n : ℕ) : Type := (⟨2, ![m, n]⟩ : Shape).Idx → EReal
abbrev Vc (n : ℕ) : Type := (⟨1, ![n]⟩ : Shape).Idx → EReal

/-- A vector laid out as one column, and as one row. -/
def col {n : ℕ} (d : Vc n) : Mat n 1 := fun j => d (ix1 (j 0))
def row {n : ℕ} (d : Vc n) : Mat 1 n := fun j => d (ix1 (j 1))

/-- The normalised adjacency at (r, c): the entry scaled by the row's factor, then by the column's. -/
def nadj {n : ℕ} (A : Mat n n) (dr : Mat n 1) (dc : Mat 1 n) (r c : Fin n) : EReal :=
  (A (ix2 r c) * dr (ix2 r 0)) * dc (ix2 0 c)

/-- The aggregated features at (r, q): the normalised adjacency's row `r` against the features' column `q`. -/
def agg {n K : ℕ} (A : Mat n n) (dr : Mat n 1) (dc : Mat 1 n) (X : Mat n K) (r : Fin n) (q : Fin K) : EReal :=
  ∑ c : Fin n, nadj A dr dc r c * X (ix2 c q)

/-- One graph-convolution layer. -/
def layer (post : EReal → EReal) {n K N : ℕ} (A : Mat n n) (dr : Mat n 1) (dc : Mat 1 n) (X : Mat n K) (W : Mat K N) (b : Mat 1 N) :
    Mat n N :=
  fun j => post ((∑ q : Fin K, agg A dr dc X (j 0) q * W (ix2 q (j 1))) + b (ix2 0 (j 1)))

/-- The first layer's `post`: the maximum with the float zero. -/
def relu0 (x : EReal) : EReal := max x (Ideal.ofBits .f32 0x00000000#32)

/-- The accumulator after column blocks 0 … k of a row of `nb · bs` terms `f`: block by block, from zero. -/
def blockAcc (bs : ℕ) (f : ℕ → EReal) : ℕ → EReal
  | 0 => 0 + ∑ kk : Fin bs, f kk.val
  | k + 1 => blockAcc bs f k + ∑ kk : Fin bs, f ((k + 1) * bs + kk.val)

/-- Summing block by block from zero is summing at once. -/
theorem blockFold_eq (nb bs : ℕ) (f : ℕ → EReal) :
    blockAcc bs f nb = ∑ c : Fin ((nb + 1) * bs), f c.val := by
  induction nb with
  | zero =>
    simp only [blockAcc, zero_add]
    exact Fintype.sum_equiv (finCongr (by simp : bs = (0 + 1) * bs)) _ _ (fun _ => rfl)
  | succ k ih =>
    rw [blockAcc, ih, show (k + 1 + 1) * bs = (k + 1) * bs + bs by ring, Fin.sum_univ_add]
    simp only [Fin.val_castAdd, Fin.val_natAdd]

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Val0.lean ====
/-
  The value of the first graph-convolution layer's kernel region over the extended reals.

  The region runs an 8 x 8 grid, point `t` being row block `t / 8` and column block `t % 8`. At each point it adds to a
  1024 x 128 accumulator the product of a 1024 x 1024 tile of the normalised adjacency (the adjacency tile scaled by the
  row factors and by the column factors) with a 1024 x 128 tile of the features; the accumulator restarts from zero at
  column block 0, and at column block 7 the row block of the output, `max (acc · W + b) 0`, is stored and written back.

  Read entry by entry: each payload is a formula in the entries of its operands; each tile's entry `(a, b)` is the
  array's entry at block index times block size plus `(a, b)`; so after column block `k` of a row block the accumulator's
  entry `(p, q)` is the block-by-block sum `Spec.blockAcc` of the terms `nadj r c · X c q` over the columns
  `c < 1024 (k + 1)` of row `r = 1024 (t / 8) + p`, and at `k = 7` that is the whole sum over the 8192 columns
  (`Spec.blockFold_eq`: only commutativity and associativity of addition, no finiteness). Every row of the output lies
  in exactly the block written back at the last column block of its row block, so the output array ends holding
  `Spec.layer Spec.relu0` of the arrays the region is entered from.
-/
import proofs.«109548_j58411555225976_1_alg».proof.Proof.Conv0
import proofs.«109548_j58411555225976_1_alg».proof.Proof.Spec
import proofs.«109548_j58411555225976_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx

/-! ## The three payloads at an entry -/

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset payload is zero everywhere. -/
theorem pay1_apply (p : Fin 1024) (q : Fin 128) : (k0_pay1 (F := Ideal)) (ix2 p q) = 0 := by
  unfold k0_pay1
  refine (congrFun (shapeCast_self _ _) (ix2 p q)).trans ?_
  exact Ideal.ofBits_zero_f32

/-- One accumulation step at entry `(p, q)`: the accumulator there plus the row `p` of the scaled adjacency tile against
    column `q` of the feature tile. -/
theorem pay2_apply (x0 : Vec Ideal S1024x1024 .f32) (x1 : Vec Ideal S1024x1 .f32) (x2 : Vec Ideal S1x1024 .f32)
    (acc x3 : Vec Ideal S1024x128 .f32) (p : Fin 1024) (q : Fin 128) :
    k0_pay2 x0 x1 x2 acc x3 (ix2 p q)
      = acc (ix2 p q) + ∑ kk : Fin 1024, ((x0 (ix2 p kk) * x1 (ix2 p (0 : Fin 1))) * x2 (ix2 (0 : Fin 1) kk)) * x3 (ix2 kk q) := by
  unfold k0_pay2
  refine (congrFun (shapeCast_self _ _) (ix2 p q)).trans ?_
  refine congrArg (acc (ix2 p q) + ·) ?_
  refine (Cert.Lib.PlainDot.matmul_zero_apply (M := 1024) (K := 1024) (N := 128) none _ _ p q).trans ?_
  refine Finset.sum_congr rfl fun kk _ => ?_
  refine congrArg (· * x3 (ix2 kk q)) ?_
  show (x0 (ix2 p kk) * broadcastTo S1024x1024 (shapeCast S1024x1 x1 shapeCasts_S1024x1_S1024x1) broadcasts_S1024x1_S1024x1024 (ix2 p kk))
      * broadcastTo S1024x1024 (shapeCast S1x1024 x2 shapeCasts_S1x1024_S1x1024) broadcasts_S1x1024_S1024x1024 (ix2 p kk) = _
  rw [shapeCast_self, shapeCast_self, broadcastTo_a1_ab_apply, broadcastTo_1b_ab_apply]

/-- The finished row block at entry `(p, j)`: the accumulator's row `p` against column `j` of the weights, plus the
    bias, then the maximum with the float zero. -/
theorem pay3_apply (acc : Vec Ideal S1024x128 .f32) (w : Vec Ideal S128x256 .f32) (b : Vec Ideal S1x256 .f32)
    (p : Fin 1024) (j : Fin 256) :
    k0_pay3 acc w b (ix2 p j)
      = max ((∑ q : Fin 128, acc (ix2 p q) * w (ix2 q j)) + b (ix2 (0 : Fin 1) j)) (Ideal.ofBits .f32 0x00000000#32) := by
  unfold k0_pay3
  show max (FloatOps.matmul (F := Ideal) (DotDims.plain 1024 128 256) none (truncf .bf16 acc bitsLt_bf16_f32) (truncf .bf16 w bitsLt_bf16_f32) (constant S1024x256 .f32 0x00000000#32) (ix2 p j)
      + broadcastTo S1024x256 (shapeCast S1x256 b shapeCasts_S1x256_S1x256) broadcasts_S1x256_S1024x256 (ix2 p j)) (Ideal.ofBits .f32 0x00000000#32) = _
  rw [shapeCast_self, broadcastTo_1b_ab_apply]
  refine congrArg (fun z => max (z + b (ix2 (0 : Fin 1) j)) (Ideal.ofBits .f32 0x00000000#32)) ?_
  exact Cert.Lib.PlainDot.matmul_zero_apply (M := 1024) (K := 128) (N := 256) none _ _ p j

/-! ## The arrays the region is entered from, and each window's block at a point, at their literal types -/

variable (V : (c : Dev nD) → (b : Ref sig .tc) → Buf (Elt Ideal) ((c : Thread nD τ).loc b))

/-- The adjacency matrix, the degree factors as a column and as a row, the features, the weights, the bias row. -/
abbrev arrA (c : Dev nD) : Spec.Mat 8192 8192 := V c main_arg0
abbrev arrDr (c : Dev nD) : Spec.Mat 8192 1 := V c main_v2
abbrev arrDc (c : Dev nD) : Spec.Mat 1 8192 := V c main_v3
abbrev arrX (c : Dev nD) : Spec.Mat 8192 128 := V c main_arg1
abbrev arrW (c : Dev nD) : Spec.Mat 128 256 := V c main_arg3
abbrev arrB (c : Dev nD) : Spec.Mat 1 256 := V c main_v4

/-- Their blocks at grid point `t` (row block `t / 8`, column block `t % 8`). -/
abbrev blkA (c : Dev nD) (t : Fin cfg0.N) : Vec Ideal S1024x1024 .f32 := iblk0 V c 0 t
abbrev blkDr (c : Dev nD) (t : Fin cfg0.N) : Vec Ideal S1024x1 .f32 := iblk0 V c 1 t
abbrev blkDc (c : Dev nD) (t : Fin cfg0.N) : Vec Ideal S1x1024 .f32 := iblk0 V c 2 t
abbrev blkX (c : Dev nD) (t : Fin cfg0.N) : Vec Ideal S1024x128 .f32 := iblk0 V c 3 t
abbrev blkW (c : Dev nD) (t : Fin cfg0.N) : Vec Ideal S128x256 .f32 := iblk0 V c 4 t
abbrev blkB (c : Dev nD) (t : Fin cfg0.N) : Vec Ideal S1x256 .f32 := iblk0 V c 5 t

/-- The index maps over the grid: point `t` is row block `t / 8`, column block `t % 8`. -/
theorem idx_facts0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val % 8 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 8 ∧ win0_6.index t (1 : Fin 2) = 0 :=
  (by decide +kernel : ∀ t : Fin grid0.N, _)

/-- A block's entry `(a, b)` is the array's entry at block index × block size + the coordinate inside the block. -/
theorem blkA_apply (c : Dev nD) (t : Fin cfg0.N) (a b : Fin 1024) (i j : Fin 8192)
    (hi : i.val = 1024 * (t.val / 8) + a.val) (hj : j.val = 1024 * (t.val % 8) + b.val) :
    blkA V c t (ix2 a b) = arrA V c (ix2 i j) := by
  obtain ⟨e0, e1, -⟩ := idx_facts0 t
  unfold blkA iblk0
  rw [View.read_apply]
  show V c main_arg0 _ = V c main_arg0 _
  congr 1
  funext d
  apply Fin.ext
  match d with
  | ⟨0, _⟩ => show win0_0.index t (0 : Fin 2) * 1024 + 1 * a.val = i.val; rw [e0, hi]; omega
  | ⟨1, _⟩ => show win0_0.index t (1 : Fin 2) * 1024 + 1 * b.val = j.val; rw [e1, hj]; omega

theorem blkDr_apply (c : Dev nD) (t : Fin cfg0.N) (a : Fin 1024) (i : Fin 8192)
    (hi : i.val = 1024 * (t.val / 8) + a.val) :
    blkDr V c t (ix2 a (0 : Fin 1)) = arrDr V c (ix2 i (0 : Fin 1)) := by
  obtain ⟨-, -, e0, e1, -⟩ := idx_facts0 t
  unfold blkDr iblk0
  rw [View.read_apply]
  show V c main_v2 _ = V c main_v2 _
  congr 1
  funext d
  apply Fin.ext
  match d with
  | ⟨0, _⟩ => show win0_1.index t (0 : Fin 2) * 1024 + 1 * a.val = i.val; rw [e0, hi]; omega
  | ⟨1, _⟩ => show win0_1.index t (1 : Fin 2) * 1 + 1 * 0 = 0; rw [e1]

theorem blkDc_apply (c : Dev nD) (t : Fin cfg0.N) (b : Fin 1024) (j : Fin 8192)
    (hj : j.val = 1024 * (t.val % 8) + b.val) :
    blkDc V c t (ix2 (0 : Fin 1) b) = arrDc V c (ix2 (0 : Fin 1) j) := by
  obtain ⟨-, -, -, -, e0, e1, -⟩ := idx_facts0 t
  unfold blkDc iblk0
  rw [View.read_apply]
  show V c main_v3 _ = V c main_v3 _
  congr 1
  funext d
  apply Fin.ext
  match d with
  | ⟨0, _⟩ => show win0_2.index t (0 : Fin 2) * 1 + 1 * 0 = 0; rw [e0]
  | ⟨1, _⟩ => show win0_2.index t (1 : Fin 2) * 1024 + 1 * b.val = j.val; rw [e1, hj]; omega

theorem blkX_apply (c : Dev nD) (t : Fin cfg0.N) (a : Fin 1024) (q : Fin 128) (i : Fin 8192)
    (hi : i.val = 1024 * (t.val % 8) + a.val) :
    blkX V c t (ix2 a q) = arrX V c (ix2 i q) := by
  obtain ⟨-, -, -, -, -, -, e0, e1, -⟩ := idx_facts0 t
  unfold blkX iblk0
  rw [View.read_apply]
  show V c main_arg1 _ = V c main_arg1 _
  congr 1
  funext d
  apply Fin.ext
  match d with
  | ⟨0, _⟩ => show win0_3.index t (0 : Fin 2) * 1024 + 1 * a.val = i.val; rw [e0, hi]; omega
  | ⟨1, _⟩ => show win0_3.index t (1 : Fin 2) * 128 + 1 * q.val = q.val; rw [e1]; omega

theorem blkW_apply (c : Dev nD) (t : Fin cfg0.N) (q : Fin 128) (j : Fin 256) :
    blkW V c t (ix2 q j) = arrW V c (ix2 q j) := by
  obtain ⟨-, -, -, -, -, -, -, -, e0, e1, -⟩ := idx_facts0 t
  unfold blkW iblk0
  rw [View.read_apply]
  show V c main_arg3 _ = V c main_arg3 _
  congr 1
  funext d
  apply Fin.ext
  match d with
  | ⟨0, _⟩ => show win0_4.index t (0 : Fin 2) * 128 + 1 * q.val = q.val; rw [e0]; omega
  | ⟨1, _⟩ => show win0_4.index t (1 : Fin 2) * 256 + 1 * j.val = j.val; rw [e1]; omega

theorem blkB_apply (c : Dev nD) (t : Fin cfg0.N) (j : Fin 256) :
    blkB V c t (ix2 (0 : Fin 1) j) = arrB V c (ix2 (0 : Fin 1) j) := by
  obtain ⟨-, -, -, -, -, -, -, -, -, -, e0, e1, -⟩ := idx_facts0 t
  unfold blkB iblk0
  rw [View.read_apply]
  show V c main_v4 _ = V c main_v4 _
  congr 1
  funext d
  apply Fin.ext
  match d with
  | ⟨0, _⟩ => show win0_5.index t (0 : Fin 2) * 1 + 1 * 0 = 0; rw [e0]
  | ⟨1, _⟩ => show win0_5.index t (1 : Fin 2) * 256 + 1 * j.val = j.val; rw [e1]; omega

/-! ## The accumulator along a row block -/

/-- The term of the aggregation's sum for row `r`, column `cc` of the adjacency and feature column `q`, as a total
    function of the two positions (zero outside the arrays). -/
def term (c : Dev nD) (q : Fin 128) (r cc : ℕ) : EReal :=
  if h : r < 8192 ∧ cc < 8192 then
    Spec.nadj (arrA V c) (arrDr V c) (arrDc V c) ⟨r, h.1⟩ ⟨cc, h.2⟩ * arrX V c (ix2 ⟨cc, h.2⟩ q)
  else 0

/-- At point `t` the step's product at inner position `kk` is the term at row `1024 (t / 8) + p` and column
    `1024 (t % 8) + kk`: each tile read where its block sits in its array. -/
theorem step_term (c : Dev nD) (t : Fin cfg0.N) (p kk : Fin 1024) (q : Fin 128) :
    ((blkA V c t (ix2 p kk) * blkDr V c t (ix2 p (0 : Fin 1))) * blkDc V c t (ix2 (0 : Fin 1) kk)) * blkX V c t (ix2 kk q)
      = term V c q (1024 * (t.val / 8) + p.val) ((t.val % 8) * 1024 + kk.val) := by
  have hN : t.val < 64 := lt_of_lt_of_eq t.isLt N_0
  have hp := p.isLt
  have hk := kk.isLt
  have hr : 1024 * (t.val / 8) + p.val < 8192 := by omega
  have hc : (t.val % 8) * 1024 + kk.val < 8192 := by omega
  have hcc : (t.val % 8) * 1024 + kk.val = 1024 * (t.val % 8) + kk.val := by omega
  unfold term
  rw [dif_pos ⟨hr, hc⟩]
  unfold Spec.nadj
  rw [blkA_apply V c t p kk ⟨_, hr⟩ ⟨_, hc⟩ rfl hcc, blkDr_apply V c t p ⟨_, hr⟩ rfl, blkDc_apply V c t kk ⟨_, hc⟩ hcc,
    blkX_apply V c t kk q ⟨_, hc⟩ hcc]

/-- THE ACCUMULATOR after point `n`, at entry `(p, q)`: the block-by-block sum, over the column blocks `0 … n % 8`, of
    the terms of row `1024 (n / 8) + p`. By induction along the row block: the first column block restarts from zero,
    every later one adds its block's partial sum to what the point before left. -/
theorem acc_eq (c : Dev nD) (n : ℕ) : ∀ (hn : n < cfg0.N) (p : Fin 1024) (q : Fin 128),
    sAt0 V c n hn (ix2 p q) = Spec.blockAcc 1024 (term V c q (1024 * (n / 8) + p.val)) (n % 8) := by
  induction n using Nat.strong_induction_on with
  | _ n ih =>
    intro hn p q
    by_cases h0 : n % 8 = 0
    · refine (congrFun (sAt0_first V c ⟨n, hn⟩ h0) (ix2 p q)).trans ?_
      rw [h0]
      refine (pay2_apply (blkA V c ⟨n, hn⟩) (blkDr V c ⟨n, hn⟩) (blkDc V c ⟨n, hn⟩) (k0_pay1 (F := Ideal)) (blkX V c ⟨n, hn⟩) p q).trans ?_
      rw [pay1_apply]
      show _ = 0 + ∑ kk : Fin 1024, term V c q (1024 * (n / 8) + p.val) kk.val
      refine congrArg (0 + ·) (Finset.sum_congr rfl fun kk _ => ?_)
      refine (step_term V c ⟨n, hn⟩ p kk q).trans ?_
      show term V c q (1024 * (n / 8) + p.val) (n % 8 * 1024 + kk.val) = _
      rw [h0, Nat.zero_mul, Nat.zero_add]
    · obtain ⟨k, hk⟩ : ∃ k, n % 8 = k + 1 := ⟨n % 8 - 1, by omega⟩
      have hn1 : n - 1 < cfg0.N := Nat.lt_of_le_of_lt (Nat.sub_le _ _) hn
      have hd : (n - 1) / 8 = n / 8 := by omega
      have hm : (n - 1) % 8 = k := by omega
      refine (congrFun (sAt0_next V c ⟨n, hn⟩ h0) (ix2 p q)).trans ?_
      refine (pay2_apply (blkA V c ⟨n, hn⟩) (blkDr V c ⟨n, hn⟩) (blkDc V c ⟨n, hn⟩) (sAt0 V c (n - 1) hn1) (blkX V c ⟨n, hn⟩) p q).trans ?_
      rw [ih (n - 1) (by omega) hn1 p q, hd, hm, hk]
      show _ = Spec.blockAcc 1024 (term V c q (1024 * (n / 8) + p.val)) k
        + ∑ kk : Fin 1024, term V c q (1024 * (n / 8) + p.val) ((k + 1) * 1024 + kk.val)
      refine congrArg (Spec.blockAcc 1024 (term V c q (1024 * (n / 8) + p.val)) k + ·) (Finset.sum_congr rfl fun kk _ => ?_)
      refine (step_term V c ⟨n, hn⟩ p kk q).trans ?_
      show term V c q (1024 * (n / 8) + p.val) (n % 8 * 1024 + kk.val) = _
      rw [hk]

/-- At the last column block of a row block the accumulator holds the whole aggregation: summing the eight blocks of 1024
    from zero is summing the 8192 terms at once. -/
theorem acc_last (c : Dev nD) (t : Fin cfg0.N) (h7 : t.val % 8 = 7) (p : Fin 1024) (q : Fin 128) (r : Fin 8192)
    (hr : r.val = 1024 * (t.val / 8) + p.val) :
    sAt0 V c t.val t.isLt (ix2 p q) = Spec.agg (arrA V c) (arrDr V c) (arrDc V c) (arrX V c) r q := by
  rw [acc_eq V c t.val t.isLt p q, h7, Spec.blockFold_eq 7 1024]
  unfold Spec.agg
  show ∑ cc : Fin 8192, term V c q (1024 * (t.val / 8) + p.val) cc.val = _
  refine Finset.sum_congr rfl fun cc _ => ?_
  obtain ⟨rv, hrv⟩ := r
  have hr' : rv = 1024 * (t.val / 8) + p.val := hr
  subst hr'
  unfold term
  rw [dif_pos ⟨hrv, cc.isLt⟩]

/-! ## From the row blocks to the output array -/

/-- The layer's result, as contents of the output array. -/
abbrev result (c : Dev nD) : Spec.Mat 8192 256 :=
  Spec.layer Spec.relu0 (arrA V c) (arrDr V c) (arrDc V c) (arrX V c) (arrW V c) (arrB V c)

/-- What the last column block of row block `t / 8` stores at entry `(p, j)` is the layer's result at row
    `1024 (t / 8) + p`, column `j`. -/
theorem out_entry (c : Dev nD) (t : Fin cfg0.N) (h7 : t.val % 8 = 7) (p : Fin 1024) (j : Fin 256) (r : Fin 8192)
    (hr : r.val = 1024 * (t.val / 8) + p.val) :
    oAt0 V c t (ix2 p j) = result V c (ix2 r j) := by
  unfold oAt0
  refine (pay3_apply (sAt0 V c t.val t.isLt) (blkW V c t) (blkB V c t) p j).trans ?_
  rw [blkB_apply V c t j]
  show _ = max ((∑ q : Fin 128, Spec.agg (arrA V c) (arrDr V c) (arrDc V c) (arrX V c) r q * arrW V c (ix2 q j))
      + arrB V c (ix2 (0 : Fin 1) j)) (Ideal.ofBits .f32 0x00000000#32)
  refine congrArg (fun z => max (z + arrB V c (ix2 (0 : Fin 1) j)) (Ideal.ofBits .f32 0x00000000#32)) ?_
  refine Finset.sum_congr rfl fun q _ => ?_
  rw [acc_last V c t h7 p q r hr, blkW_apply V c t q j]

/-- WHAT A FLUSHING POINT WRITES BACK is its block of the layer's result. -/
theorem flushed_eq (c : Dev nD) (t : Fin cfg0.N) (hf : (cfg0.win 6).flush t = true) :
    (dat0 (F := Ideal) V c).flushed 6 t = ((cfg0.win 6).blk t).view.read (Elt Ideal) (result V c) := by
  have h7 : t.val % 8 = 7 := (flush0_6 t).mp hf
  have hN : t.val < 64 := lt_of_lt_of_eq t.isLt N_0
  obtain ⟨-, -, -, -, -, -, -, -, -, -, -, -, e0, e1⟩ := idx_facts0 t
  show (cfg0.win 6).cut (grid0.coords t) ((dat0 (F := Ideal) V c).after 6 t) = _
  rw [after0_6]
  funext y
  have hy0 : (y 0).val < 1024 := (y 0).isLt
  have hy1 : (y 1).val < 256 := (y 1).isLt
  have hr : 1024 * (t.val / 8) + (y 0).val < 8192 := by omega
  rw [View.read_apply]
  have ey : (cfg0.win 6).xinj (grid0.coords t) y = ix2 (⟨(y 0).val, hy0⟩ : Fin 1024) (⟨(y 1).val, hy1⟩ : Fin 256) :=
    funext fun a => by
      match a with
      | ⟨0, _⟩ => rfl
      | ⟨1, _⟩ => rfl
  have eb : ((cfg0.win 6).blk t).view.emb y = ix2 (⟨1024 * (t.val / 8) + (y 0).val, hr⟩ : Fin 8192) (⟨(y 1).val, hy1⟩ : Fin 256) :=
    funext fun a => Fin.ext (by
      match a with
      | ⟨0, _⟩ => show win0_6.index t (0 : Fin 2) * 1024 + 1 * (y 0).val = 1024 * (t.val / 8) + (y 0).val; rw [e0]; omega
      | ⟨1, _⟩ => show win0_6.index t (1 : Fin 2) * 256 + 1 * (y 1).val = (y 1).val; rw [e1]; omega)
  show oAt0 V c t ((cfg0.win 6).xinj (grid0.coords t) y) = result V c (((cfg0.win 6).blk t).view.emb y)
  rw [ey, eb]
  exact out_entry V c t h7 ⟨(y 0).val, hy0⟩ ⟨(y 1).val, hy1⟩ ⟨1024 * (t.val / 8) + (y 0).val, hr⟩ rfl

/-- Row `r` of the output lies in the block written back at the last column block of row block `r / 1024`. -/
theorem cover (i : S8192x256.Idx) :
    ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 64 := N_0
  have ht : 8 * ((i 0).val / 1024) + 7 < cfg0.N := by rw [hN]; omega
  refine ⟨⟨8 * ((i 0).val / 1024) + 7, ht⟩, (flush0_6 _).mpr (by show (8 * ((i 0).val / 1024) + 7) % 8 = 7; omega), ?_⟩
  obtain ⟨-, -, -, -, -, -, -, -, -, -, -, -, e0, e1⟩ := idx_facts0 ⟨8 * ((i 0).val / 1024) + 7, ht⟩
  have e0' : win0_6.index ⟨8 * ((i 0).val / 1024) + 7, ht⟩ (0 : Fin 2) = (i 0).val / 1024 := by
    rw [e0]; show (8 * ((i 0).val / 1024) + 7) / 8 = _; omega
  show i ∈ ((View.whole main_v6).slice (win0_6.rect ⟨8 * ((i 0).val / 1024) + 7, ht⟩)).set
  rw [View.set_slice_whole, Rect.mem_set_unit]
  intro a
  match a with
  | ⟨0, _⟩ =>
    show win0_6.index ⟨8 * ((i 0).val / 1024) + 7, ht⟩ (0 : Fin 2) * 1024 ≤ (i 0).val
      ∧ (i 0).val < win0_6.index ⟨8 * ((i 0).val / 1024) + 7, ht⟩ (0 : Fin 2) * 1024 + 1024
    rw [e0']; omega
  | ⟨1, _⟩ =>
    show win0_6.index ⟨8 * ((i 0).val / 1024) + 7, ht⟩ (1 : Fin 2) * 256 ≤ (i 1).val
      ∧ (i 1).val < win0_6.index ⟨8 * ((i 0).val / 1024) + 7, ht⟩ (1 : Fin 2) * 256 + 256
    rw [e1]; omega

/-- THE OUTPUT ARRAY after the region: the first graph-convolution layer of the arrays the region is entered from. -/
theorem arr0_eq (c : Dev nD) :
    (dat0 (F := Ideal) V c).arrAt 6 cfg0.N
      = Spec.layer Spec.relu0 (V c main_arg0) (V c main_v2) (V c main_v3) (V c main_arg1) (V c main_arg3) (V c main_v4) :=
  (dat0 (F := Ideal) V c).arrAt_eq_of_cover 6 (result V c) (flushed_eq V c) cover

end Cert.KernelIdeal.Val

end
-- ==== Proof.Val1.lean ====
/-
  The value of the second graph-convolution layer's kernel region over the extended reals.

  The region's grid is 8 row blocks by 8 column blocks; point `t` has row block `t / 8` and column block `t % 8`, the column
  block innermost. At entry `(p, q)` the accumulator of row block `i` gains, at column block `k`, the 1024 terms
      (A (r, cc) · dr r · dc cc) · X (cc, q),   r = 1024 i + p,   cc = 1024 k … 1024 k + 1023,
  on top of what the column block before left, starting from zero at `k = 0`. After `k = 7` it therefore holds the eight
  blocks of row `r`'s 8192 terms added block by block from zero, which is their sum at once (addition of extended reals is
  commutative and associative and zero is neutral: no finiteness is used). There the body stores
      (∑ q, acc (p, q) · W (q, j)) + b j
  into the output's block, which the pipeline writes back as rows `1024 i … 1024 i + 1023` of the output array. Every
  row lies in exactly such a block, so the array ends at the layer's result, entry by entry.

  The steps: the three payloads of the body at an entry; each input block read where its array's index says (block
  index times block size plus the coordinate inside the block); the accumulator by induction along the points; the
  written-back block at a last column block; the cover of the output array by those blocks.
-/
import proofs.«109548_j58411555225976_1_alg».proof.Proof.Conv1
import proofs.«109548_j58411555225976_1_alg».proof.Proof.Spec
import proofs.«109548_j58411555225976_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx

namespace Conv1

/-! ## The body's arithmetic at an entry -/

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value of the accumulator is zero at every entry. -/
theorem pay1_apply (p : Fin 1024) (q : Fin 256) : (k1_pay1 (F := Ideal)) (ix2 p q) = 0 := by
  unfold k1_pay1
  simp only [shapeCast_self]
  exact Ideal.ofBits_zero_f32

/-- One accumulation step at an entry: the accumulator plus the row of the scaled adjacency tile against the column of
    the feature tile. -/
theorem pay2_apply (x0 : Vec Ideal S1024x1024 .f32) (x1 : Vec Ideal S1024x1 .f32) (x2 : Vec Ideal S1x1024 .f32)
    (acc x3 : Vec Ideal S1024x256 .f32) (p : Fin 1024) (q : Fin 256) :
    k1_pay2 x0 x1 x2 acc x3 (ix2 p q)
      = acc (ix2 p q) + ∑ kk : Fin 1024, ((x0 (ix2 p kk) * x1 (ix2 p 0)) * x2 (ix2 0 kk)) * x3 (ix2 kk q) := by
  unfold k1_pay2
  simp only [shapeCast_self]
  refine congrArg (acc (ix2 p q) + ·) ?_
  refine (Cert.Lib.PlainDot.matmul_zero_apply (M := 1024) (K := 1024) (N := 256) none _ _ p q).trans ?_
  refine Finset.sum_congr rfl fun kk _ => ?_
  show ((x0 (ix2 p kk) * broadcastTo S1024x1024 x1 broadcasts_S1024x1_S1024x1024 (ix2 p kk))
      * broadcastTo S1024x1024 x2 broadcasts_S1x1024_S1024x1024 (ix2 p kk)) * x3 (ix2 kk q) = _
  rw [broadcastTo_a1_ab_apply, broadcastTo_1b_ab_apply]

/-- The finished row block at an entry: the accumulator's row against the weights' column, plus the bias. -/
theorem pay3_apply (acc : Vec Ideal S1024x256 .f32) (w : Vec Ideal S256x10 .f32) (b : Vec Ideal S1x10 .f32)
    (p : Fin 1024) (j : Fin 10) :
    k1_pay3 acc w b (ix2 p j) = (∑ q : Fin 256, acc (ix2 p q) * w (ix2 q j)) + b (ix2 0 j) := by
  unfold k1_pay3
  simp only [shapeCast_self]
  refine congrArg₂ (· + ·) ?_ ?_
  · exact Cert.Lib.PlainDot.matmul_zero_apply (M := 1024) (K := 256) (N := 10) none _ _ p j
  · exact broadcastTo_1b_ab_apply _ _ p j

/-! ## The arrays the region is entered from, and each window's block as a part of its array

The grid point `t` has row block `t / 8` and column block `t % 8`. A block's entry sits in its array, on each axis, at
the block index times the block size plus its coordinate inside the block. -/

variable (V : (c : Dev nD) → (b : Ref sig .tc) → Buf (Elt Ideal) ((c : Thread nD τ).loc b))

/-- The adjacency matrix, the degree factors as a column and as a row, the features, the weights and the bias, as the
    region finds them. -/
abbrev arrA (c : Dev nD) : Spec.Mat 8192 8192 := V c main_arg0
abbrev arrDr (c : Dev nD) : Spec.Mat 8192 1 := V c main_v2
abbrev arrDc (c : Dev nD) : Spec.Mat 1 8192 := V c main_v3
abbrev arrX (c : Dev nD) : Spec.Mat 8192 256 := V c main_v6
abbrev arrW (c : Dev nD) : Spec.Mat 256 10 := V c main_arg5
abbrev arrB (c : Dev nD) : Spec.Mat 1 10 := V c main_v5

/-- The six input blocks at a point, at their literal types. -/
abbrev blkA (c : Dev nD) (t : Fin cfg1.N) : Vec Ideal S1024x1024 .f32 := iblk1 V c 0 t
abbrev blkDr (c : Dev nD) (t : Fin cfg1.N) : Vec Ideal S1024x1 .f32 := iblk1 V c 1 t
abbrev blkDc (c : Dev nD) (t : Fin cfg1.N) : Vec Ideal S1x1024 .f32 := iblk1 V c 2 t
abbrev blkX (c : Dev nD) (t : Fin cfg1.N) : Vec Ideal S1024x256 .f32 := iblk1 V c 3 t
abbrev blkW (c : Dev nD) (t : Fin cfg1.N) : Vec Ideal S256x10 .f32 := iblk1 V c 4 t
abbrev blkB (c : Dev nD) (t : Fin cfg1.N) : Vec Ideal S1x10 .f32 := iblk1 V c 5 t

/-- The windows' index maps in closed form over the grid: at point `t` the row block is `t / 8`, the column block `t % 8`. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 8 ∧ win1_6.index t (1 : Fin 2) = 0 :=
  (by decide +kernel : ∀ t : Fin grid1.N, _)

theorem blkA_apply (c : Dev nD) (t : Fin cfg1.N) (a b : Fin 1024) (r s : Fin 8192)
    (hr : r.val = 1024 * (t.val / 8) + a.val) (hs : s.val = 1024 * (t.val % 8) + b.val) :
    blkA V c t (ix2 a b) = arrA V c (ix2 r s) := by
  obtain ⟨e0, e1, -⟩ := idx_facts1 t
  show iblk1 V c 0 t (ix2 a b) = V c main_arg0 (ix2 r s)
  unfold iblk1
  rw [View.read_apply]
  show V c main_arg0 _ = V c main_arg0 _
  congr 1
  funext ax
  apply Fin.ext
  match ax with
  | ⟨0, _⟩ => show win1_0.index t (0 : Fin 2) * 1024 + 1 * a.val = r.val; rw [e0, hr]; omega
  | ⟨1, _⟩ => show win1_0.index t (1 : Fin 2) * 1024 + 1 * b.val = s.val; rw [e1, hs]; omega

theorem blkDr_apply (c : Dev nD) (t : Fin cfg1.N) (a : Fin 1024) (r : Fin 8192)
    (hr : r.val = 1024 * (t.val / 8) + a.val) :
    blkDr V c t (ix2 a 0) = arrDr V c (ix2 r 0) := by
  obtain ⟨-, -, e0, e1, -⟩ := idx_facts1 t
  show iblk1 V c 1 t (ix2 a 0) = V c main_v2 (ix2 r 0)
  unfold iblk1
  rw [View.read_apply]
  show V c main_v2 _ = V c main_v2 _
  congr 1
  funext ax
  apply Fin.ext
  match ax with
  | ⟨0, _⟩ => show win1_1.index t (0 : Fin 2) * 1024 + 1 * a.val = r.val; rw [e0, hr]; omega
  | ⟨1, _⟩ => show win1_1.index t (1 : Fin 2) * 1 + 1 * 0 = 0; rw [e1]

theorem blkDc_apply (c : Dev nD) (t : Fin cfg1.N) (b : Fin 1024) (s : Fin 8192)
    (hs : s.val = 1024 * (t.val % 8) + b.val) :
    blkDc V c t (ix2 0 b) = arrDc V c (ix2 0 s) := by
  obtain ⟨-, -, -, -, e0, e1, -⟩ := idx_facts1 t
  show iblk1 V c 2 t (ix2 0 b) = V c main_v3 (ix2 0 s)
  unfold iblk1
  rw [View.read_apply]
  show V c main_v3 _ = V c main_v3 _
  congr 1
  funext ax
  apply Fin.ext
  match ax with
  | ⟨0, _⟩ => show win1_2.index t (0 : Fin 2) * 1 + 1 * 0 = 0; rw [e0]
  | ⟨1, _⟩ => show win1_2.index t (1 : Fin 2) * 1024 + 1 * b.val = s.val; rw [e1, hs]; omega

theorem blkX_apply (c : Dev nD) (t : Fin cfg1.N) (a : Fin 1024) (q : Fin 256) (s : Fin 8192)
    (hs : s.val = 1024 * (t.val % 8) + a.val) :
    blkX V c t (ix2 a q) = arrX V c (ix2 s q) := by
  obtain ⟨-, -, -, -, -, -, e0, e1, -⟩ := idx_facts1 t
  show iblk1 V c 3 t (ix2 a q) = V c main_v6 (ix2 s q)
  unfold iblk1
  rw [View.read_apply]
  show V c main_v6 _ = V c main_v6 _
  congr 1
  funext ax
  apply Fin.ext
  match ax with
  | ⟨0, _⟩ => show win1_3.index t (0 : Fin 2) * 1024 + 1 * a.val = s.val; rw [e0, hs]; omega
  | ⟨1, _⟩ => show win1_3.index t (1 : Fin 2) * 256 + 1 * q.val = q.val; rw [e1]; omega

theorem blkW_apply (c : Dev nD) (t : Fin cfg1.N) (q : Fin 256) (j : Fin 10) :
    blkW V c t (ix2 q j) = arrW V c (ix2 q j) := by
  obtain ⟨-, -, -, -, -, -, -, -, e0, e1, -⟩ := idx_facts1 t
  show iblk1 V c 4 t (ix2 q j) = V c main_arg5 (ix2 q j)
  unfold iblk1
  rw [View.read_apply]
  show V c main_arg5 _ = V c main_arg5 _
  congr 1
  funext ax
  apply Fin.ext
  match ax with
  | ⟨0, _⟩ => show win1_4.index t (0 : Fin 2) * 256 + 1 * q.val = q.val; rw [e0]; omega
  | ⟨1, _⟩ => show win1_4.index t (1 : Fin 2) * 10 + 1 * j.val = j.val; rw [e1]; omega

theorem blkB_apply (c : Dev nD) (t : Fin cfg1.N) (j : Fin 10) :
    blkB V c t (ix2 0 j) = arrB V c (ix2 0 j) := by
  obtain ⟨-, -, -, -, -, -, -, -, -, -, e0, e1, -⟩ := idx_facts1 t
  show iblk1 V c 5 t (ix2 0 j) = V c main_v5 (ix2 0 j)
  unfold iblk1
  rw [View.read_apply]
  show V c main_v5 _ = V c main_v5 _
  congr 1
  funext ax
  apply Fin.ext
  match ax with
  | ⟨0, _⟩ => show win1_5.index t (0 : Fin 2) * 1 + 1 * 0 = 0; rw [e0]
  | ⟨1, _⟩ => show win1_5.index t (1 : Fin 2) * 10 + 1 * j.val = j.val; rw [e1]; omega

/-! ## The accumulator along a row block -/

/-- The `cc`-th term of the aggregated feature `q` of row `r`: the normalised adjacency at `(r, cc)` times the feature
    at `(cc, q)`; zero past the matrix's 8192 columns (never read). -/
def term (c : Dev nD) (r : Fin 8192) (q : Fin 256) (cc : ℕ) : EReal :=
  if h : cc < 8192 then Spec.nadj (arrA V c) (arrDr V c) (arrDc V c) r ⟨cc, h⟩ * arrX V c (ix2 ⟨cc, h⟩ q) else 0

/-- One step at point `t`, at entry `(p, q)` of the accumulator: column block `t % 8` of row `1024 (t / 8) + p` is added. -/
theorem step_apply (c : Dev nD) (t : Fin cfg1.N) (acc : Vec Ideal S1024x256 .f32) (p : Fin 1024) (q : Fin 256)
    (r : Fin 8192) (hr : r.val = 1024 * (t.val / 8) + p.val) :
    stepAt1 V c t acc (ix2 p q) = acc (ix2 p q) + ∑ kk : Fin 1024, term V c r q (t.val % 8 * 1024 + kk.val) := by
  refine (pay2_apply (blkA V c t) (blkDr V c t) (blkDc V c t) acc (blkX V c t) p q).trans ?_
  refine congrArg (acc (ix2 p q) + ·) ?_
  refine Finset.sum_congr rfl fun kk _ => ?_
  have hk : t.val % 8 * 1024 + kk.val < 8192 := by have := kk.isLt; have := Nat.mod_lt t.val (by norm_num : 0 < 8); omega
  unfold term
  rw [dif_pos hk]
  unfold Spec.nadj
  rw [blkA_apply V c t p kk r ⟨_, hk⟩ hr (by show t.val % 8 * 1024 + kk.val = _; omega),
    blkDr_apply V c t p r hr,
    blkDc_apply V c t kk ⟨_, hk⟩ (by show t.val % 8 * 1024 + kk.val = _; omega),
    blkX_apply V c t kk q ⟨_, hk⟩ (by show t.val % 8 * 1024 + kk.val = _; omega)]

/-- The block-by-block sum's two defining equations, spelt with the block's offset. -/
theorem blockAcc_zero (f : ℕ → EReal) : Spec.blockAcc 1024 f 0 = 0 + ∑ kk : Fin 1024, f (0 * 1024 + kk.val) := by
  show 0 + ∑ kk : Fin 1024, f kk.val = _
  refine congrArg (0 + ·) (Finset.sum_congr rfl fun kk _ => ?_)
  rw [Nat.zero_mul, Nat.zero_add]
theorem blockAcc_succ (f : ℕ → EReal) (k : ℕ) :
    Spec.blockAcc 1024 f (k + 1) = Spec.blockAcc 1024 f k + ∑ kk : Fin 1024, f ((k + 1) * 1024 + kk.val) := rfl

/-- THE ACCUMULATOR after point `n`, at entry `(p, q)`: the blocks `0 … n % 8` of row `1024 (n / 8) + p`'s terms, added block
    by block from zero. By induction on the point. -/
theorem sAt1_apply (c : Dev nD) : ∀ (n : ℕ) (hn : n < cfg1.N) (p : Fin 1024) (q : Fin 256) (r : Fin 8192),
    r.val = 1024 * (n / 8) + p.val →
    sAt1 V c n hn (ix2 p q) = Spec.blockAcc 1024 (term V c r q) (n % 8) := by
  intro n
  induction n with
  | zero =>
    intro hn p q r hr
    rw [sAt1_first V c ⟨0, hn⟩ rfl, step_apply V c ⟨0, hn⟩ _ p q r hr, pay1_apply]
    exact (blockAcc_zero _).symm
  | succ m ih =>
    intro hn p q r hr
    by_cases h0 : (m + 1) % 8 = 0
    · rw [sAt1_first V c ⟨m + 1, hn⟩ h0, step_apply V c ⟨m + 1, hn⟩ _ p q r hr, pay1_apply]
      show (0 : EReal) + ∑ kk : Fin 1024, term V c r q ((m + 1) % 8 * 1024 + kk.val)
        = Spec.blockAcc 1024 (term V c r q) ((m + 1) % 8)
      rw [h0]
      exact (blockAcc_zero _).symm
    · obtain ⟨k, hk⟩ : ∃ k, (m + 1) % 8 = k + 1 := ⟨(m + 1) % 8 - 1, by omega⟩
      have hm : m % 8 = k := by omega
      have hd : m / 8 = (m + 1) / 8 := by omega
      rw [sAt1_next V c ⟨m + 1, hn⟩ h0, step_apply V c ⟨m + 1, hn⟩ _ p q r hr]
      show sAt1 V c m (Nat.lt_of_succ_lt hn) (ix2 p q) + ∑ kk : Fin 1024, term V c r q ((m + 1) % 8 * 1024 + kk.val)
        = Spec.blockAcc 1024 (term V c r q) ((m + 1) % 8)
      rw [ih (Nat.lt_of_succ_lt hn) p q r (by rw [hd]; exact hr), hm, hk]
      exact (blockAcc_succ _ k).symm

/-- Eight blocks of 1024 terms from zero are the whole row's 8192 terms: the aggregated feature. -/
theorem blockAcc_eq_agg (c : Dev nD) (r : Fin 8192) (q : Fin 256) :
    Spec.blockAcc 1024 (term V c r q) 7 = Spec.agg (arrA V c) (arrDr V c) (arrDc V c) (arrX V c) r q := by
  rw [Spec.blockFold_eq 7 1024]
  unfold Spec.agg
  refine Fintype.sum_equiv (finCongr (by norm_num)) _ _ fun cc => ?_
  have hc : cc.val < 8192 := by have := cc.isLt; omega
  unfold term
  rw [dif_pos hc]
  rfl

/-! ## The written-back block, and the whole array -/

/-- The layer's result on the arrays the region is entered from. -/
abbrev G (c : Dev nD) : Spec.Mat 8192 10 :=
  Spec.layer (fun x => x) (arrA V c) (arrDr V c) (arrDc V c) (arrX V c) (arrW V c) (arrB V c)

/-- The output's buffer after a last column block, at entry `(p, j)`: the layer's result at row `1024 (t / 8) + p`. -/
theorem oAt1_apply (c : Dev nD) (t : Fin cfg1.N) (h7 : t.val % 8 = 7) (p : Fin 1024) (j : Fin 10) (r : Fin 8192)
    (hr : r.val = 1024 * (t.val / 8) + p.val) :
    oAt1 V c t (ix2 p j) = G V c (ix2 r j) := by
  unfold oAt1
  refine (pay3_apply (sAt1 V c t.val t.isLt) (blkW V c t) (blkB V c t) p j).trans ?_
  show _ = (∑ q : Fin 256, Spec.agg (arrA V c) (arrDr V c) (arrDc V c) (arrX V c) r q * arrW V c (ix2 q j)) + arrB V c (ix2 0 j)
  rw [blkB_apply]
  refine congrArg (· + arrB V c (ix2 0 j)) (Finset.sum_congr rfl fun q _ => ?_)
  rw [sAt1_apply V c t.val t.isLt p q r hr, h7, blockAcc_eq_agg, blkW_apply]

/-- WHAT A FLUSHING POINT WRITES BACK is its block of the layer's result. -/
theorem flushed_eq (c : Dev nD) (t : Fin cfg1.N) (hf : (cfg1.win 6).flush t = true) :
    (dat1 V c).flushed 6 t = ((cfg1.win 6).blk t).view.read (Elt Ideal) (G V c) := by
  have h7 : t.val % 8 = 7 := (flush1_6 t).mp hf
  obtain ⟨-, -, -, -, -, -, -, -, -, -, -, -, e0, e1⟩ := idx_facts1 t
  have hN : t.val < 64 := lt_of_lt_of_eq t.isLt (show cfg1.N = 64 from N_1)
  show (cfg1.win 6).cut (grid1.coords t) ((dat1 V c).after 6 t) = _
  rw [after1_6]
  funext y
  have hp : (y 0).val < 1024 := (y 0).isLt
  have hj : (y 1).val < 10 := (y 1).isLt
  have hr : 1024 * (t.val / 8) + (y 0).val < 8192 := by omega
  rw [View.read_apply]
  show oAt1 V c t (win1_6.xinj (grid1.coords t) y) = G V c (((cfg1.win 6).blk t).view.emb y)
  have e1' : win1_6.xinj (grid1.coords t) y = ix2 (⟨(y 0).val, hp⟩ : Fin 1024) (⟨(y 1).val, hj⟩ : Fin 10) :=
    funext fun a => by match a with | ⟨0, _⟩ => rfl | ⟨1, _⟩ => rfl
  have e2' : (((cfg1.win 6).blk t).view.emb y : S8192x10.Idx)
      = ix2 (⟨1024 * (t.val / 8) + (y 0).val, hr⟩ : Fin 8192) (⟨(y 1).val, hj⟩ : Fin 10) :=
    funext fun a => Fin.ext (by
      match a with
      | ⟨0, _⟩ => show win1_6.index t (0 : Fin 2) * 1024 + 1 * (y 0).val = 1024 * (t.val / 8) + (y 0).val; rw [e0]; omega
      | ⟨1, _⟩ => show win1_6.index t (1 : Fin 2) * 10 + 1 * (y 1).val = (y 1).val; rw [e1]; omega)
  exact (congrArg (oAt1 V c t) e1').trans ((oAt1_apply V c t h7 _ _ _ rfl).trans (congrArg (G V c) e2').symm)

/-- An index of the output array is in point `t`'s block iff each coordinate is in the block's range on its axis. -/
theorem mem_blk (t : Fin cfg1.N) (i : S8192x10.Idx) :
    i ∈ ((cfg1.win 6).blk t).view.set ↔ ∀ a : Fin 2, win1_6.index t a * S1024x10.size a ≤ (i a).val
      ∧ (i a).val < win1_6.index t a * S1024x10.size a + S1024x10.size a := by
  show i ∈ ((View.whole main_v7).slice (win1_6.rect t)).set ↔ _
  rw [View.set_slice_whole, Rect.mem_set_unit]
  exact Iff.rfl

/-- Row `r` of the output is in the block written back at the last column block of row block `r / 1024`. -/
theorem cover (i : S8192x10.Idx) : ∃ t : Fin cfg1.N, (cfg1.win 6).flush t = true ∧ i ∈ ((cfg1.win 6).blk t).view.set := by
  have hi0 : (i 0).val < 8192 := (i 0).isLt
  have hi1 : (i 1).val < 10 := (i 1).isLt
  have hN : cfg1.N = 64 := N_1
  obtain ⟨t, htv⟩ : ∃ t : Fin cfg1.N, t.val = 8 * ((i 0).val / 1024) + 7 := ⟨⟨8 * ((i 0).val / 1024) + 7, by rw [hN]; omega⟩, rfl⟩
  obtain ⟨-, -, -, -, -, -, -, -, -, -, -, -, e0, e1⟩ := idx_facts1 t
  refine ⟨t, (flush1_6 t).mpr (by rw [htv]; omega), ?_⟩
  rw [mem_blk]
  intro a
  match a with
  | ⟨0, _⟩ =>
    show win1_6.index t (0 : Fin 2) * 1024 ≤ (i 0).val ∧ (i 0).val < win1_6.index t (0 : Fin 2) * 1024 + 1024
    rw [e0, htv]; omega
  | ⟨1, _⟩ =>
    show win1_6.index t (1 : Fin 2) * 10 ≤ (i 1).val ∧ (i 1).val < win1_6.index t (1 : Fin 2) * 10 + 10
    rw [e1]; omega

end Conv1

variable (V : (c : Dev nD) → (b : Ref sig .tc) → Buf (Elt Ideal) ((c : Thread nD τ).loc b))

/-- THE OUTPUT ARRAY after the region: the graph-convolution layer (no activation) of the arrays it was entered from. -/
theorem arr1_eq (c : Dev nD) :
    (dat1 (F := Ideal) V c).arrAt 6 cfg1.N
      = Spec.layer (fun x => x) (V c main_arg0) (V c main_v2) (V c main_v3) (V c main_v6) (V c main_arg5) (V c main_v5) :=
  (dat1 V c).arrAt_eq_of_cover 6 (Conv1.G V c) (fun t hf => Conv1.flushed_eq V c t hf) (fun i => Conv1.cover i)

end Cert.KernelIdeal.Val

end
-- ==== Proof.HostK.lean ====
/-
  What the idealized kernel program's host operations compute, read over the extended reals.

  Before the first kernel region the program replaces the infinite entries of the degree factors by zero (eight
  operations: an absolute value, a comparison with +∞, a select against a zero vector), lays that vector out as a column
  and as a row, and lays the two bias vectors out as rows. After the second region it averages the rows of that region's
  result per graph identifier (sixteen operations: two scatter-additions, a maximum with one, a division). The two
  computations are named as functions of whole arrays, `dvecK` and `tailK`.
-/
import proofs.«109548_j58411555225976_1_alg».proof.Proof.Gen.KernelIdeal.Regions
import proofs.«109548_j58411555225976_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx

/-- The degree factors with their infinite entries replaced by zero. -/
def dvecK (dis : FVec Ideal S8192 .f32) : FVec Ideal S8192 .f32 :=
  select (cmpf .oeq (Host.absf (F := Ideal) dis) (broadcastInDim S8192 ![] bcast_S_S8192 (constant (F := Ideal) S_ .f32 0x7F800000#32)))
    (broadcastInDim S8192 ![] bcast_S_S8192 (id (constant (F := Ideal) S_ .f32 0x00000000#32))) dis

/-- The mean over each graph's nodes: the rows of `x` added up per graph identifier `g`, each sum divided by the number
    of the graph's nodes, that number taken to be at least one. -/
def tailK (x : FVec Ideal S8192x10 .f32) (g : IVec S8192 32) : FVec Ideal S64x10 .f32 :=
  Host.divf (F := Ideal)
    (Host.scatterAdd (F := Ideal) scatter_S64x10_S8192x1_S8192x10_1_0_0_1
      (broadcastInDim S64x10 ![] bcast_S_S64x10 (constant (F := Ideal) S_ .f32 0x00000000#32))
      (broadcastInDim S8192x1 ![0] bcast_S8192_S8192x1_0 g) x)
    (broadcastInDim S64x10 ![0, 1] bcast_S64x1_S64x10_0_1
      (broadcastInDim S64x1 ![0] bcast_S64_S64x1_0
        (maximumf (F := Ideal)
          (Host.scatterAdd (F := Ideal) scatter_S64_S8192x1_S8192_n_0_0_1
            (broadcastInDim S64 ![] bcast_S_S64 (constant (F := Ideal) S_ .f32 0x00000000#32))
            (broadcastInDim S8192x1 ![0] bcast_S8192_S8192x1_0 g)
            (broadcastInDim S8192 ![] bcast_S_S8192 (constant (F := Ideal) S_ .f32 0x3F800000#32)))
          (broadcastInDim S64 ![] bcast_S_S64 (constant (F := Ideal) S_ .f32 0x3F800000#32)))))

/-! ## The host stretches from any contents `W` of the buffers -/

/-- The first three stretches leave in `main_v1` the degree factors with their infinite entries zeroed. -/
theorem after012_v1 (W : Valuation τ sig (Elt Ideal)) :
    (StableHlo.after (hostOps0_2 (F := Ideal)) (StableHlo.after (hostOps0_1 (F := Ideal)) (StableHlo.after (hostOps0 (F := Ideal)) W)) (Proc.devRef .tc main_v1) : S8192.Idx → EReal)
      = dvecK (W (Proc.devRef .tc main_arg2)) := by
  dsimp only [hostOps0, hostOps0_1, hostOps0_2]
  after_results
  rfl

/-- The fourth stretch leaves in `main_v2` the vector of `main_v1` recast to one column. -/
theorem after3_v2 (W : Valuation τ sig (Elt Ideal)) :
    (StableHlo.after (hostOps0_3 (F := Ideal)) W (Proc.devRef .tc main_v2) : S8192x1.Idx → EReal)
      = shapeCast S8192x1 (W (Proc.devRef .tc main_v1) : S8192.Idx → EReal) shapeCasts_S8192_S8192x1 := by
  dsimp only [hostOps0_3]
  after_results
  rfl

/-- … in `main_v3` the same vector recast to one row. -/
theorem after3_v3 (W : Valuation τ sig (Elt Ideal)) :
    (StableHlo.after (hostOps0_3 (F := Ideal)) W (Proc.devRef .tc main_v3) : S1x8192.Idx → EReal)
      = shapeCast S1x8192 (W (Proc.devRef .tc main_v1) : S8192.Idx → EReal) shapeCasts_S8192_S1x8192 := by
  dsimp only [hostOps0_3]
  after_results
  rfl

/-- … in `main_v4` the first bias vector recast to one row. -/
theorem after3_v4 (W : Valuation τ sig (Elt Ideal)) :
    (StableHlo.after (hostOps0_3 (F := Ideal)) W (Proc.devRef .tc main_v4) : S1x256.Idx → EReal)
      = shapeCast S1x256 (W (Proc.devRef .tc main_arg4) : S256.Idx → EReal) shapeCasts_S256_S1x256 := by
  dsimp only [hostOps0_3]
  after_results
  rfl

/-- … in `main_v5` the second bias vector recast to one row. -/
theorem after3_v5 (W : Valuation τ sig (Elt Ideal)) :
    (StableHlo.after (hostOps0_3 (F := Ideal)) W (Proc.devRef .tc main_v5) : S1x10.Idx → EReal)
      = shapeCast S1x10 (W (Proc.devRef .tc main_arg6) : S10.Idx → EReal) shapeCasts_S10_S1x10 := by
  dsimp only [hostOps0_3]
  after_results
  rfl

/-- The last stretch, from any contents `W`, leaves in `main_v19` the per-graph mean of what `main_v7` holds, the graph
    identifiers read from `main_arg7`. -/
theorem after_tail (W : Valuation τ sig (Elt Ideal)) :
    (StableHlo.after (hostOps2 (F := Ideal)) W (Proc.devRef .tc main_v19) : S64x10.Idx → EReal)
      = tailK (W (Proc.devRef .tc main_v7)) (W (Proc.devRef .tc main_arg7)) := by
  dsimp only [hostOps2]
  after_results
  rfl

/-! ## A vector recast to one column or to one row -/

/-- A vector of length `n` recast to shape `[n, 1]` is the vector laid out as a column: entry `(r, 0)` sits at row-major
    position `r · 1 + 0 = r`. -/
theorem shapeCast_col {n : ℕ} (x : (⟨1, ![n]⟩ : Shape).Idx → EReal) (h : (⟨1, ![n]⟩ : Shape).ShapeCasts ⟨2, ![n, 1]⟩) :
    shapeCast ⟨2, ![n, 1]⟩ x h = Spec.col x := by
  funext j
  refine shapeCast_apply x h j (ix1 (j 0)) ?_
  rw [Shape.rowMajor_val_two, Shape.rowMajor_val_one]
  have h1 : (j 1).val < 1 := idx2_lt1 j
  show (j 0).val = (j 0).val * 1 + (j 1).val
  omega

/-- A vector of length `n` recast to shape `[1, n]` is the vector laid out as a row: entry `(0, k)` sits at row-major
    position `0 · n + k = k`. -/
theorem shapeCast_row {n : ℕ} (x : (⟨1, ![n]⟩ : Shape).Idx → EReal) (h : (⟨1, ![n]⟩ : Shape).ShapeCasts ⟨2, ![1, n]⟩) :
    shapeCast ⟨2, ![1, n]⟩ x h = Spec.row x := by
  funext j
  refine shapeCast_apply x h j (ix1 (j 1)) ?_
  rw [Shape.rowMajor_val_two, Shape.rowMajor_val_one]
  have h0 : (j 0).val < 1 := idx2_lt0 j
  show (j 1).val = (j 0).val * n + (j 1).val
  have : (j 0).val = 0 := by omega
  rw [this, Nat.zero_mul, Nat.zero_add]

/-! ## The buffers' contents before the first kernel region, from the launch memory `m` -/

variable (m : (ℓ : Loc nD τ sig) → Buf (Elt Ideal) ℓ) (c : Dev nD)

/-- After the first three stretches `main_v1` holds the zeroed degree factors of the launch's `main_arg2`. -/
theorem V3_v1 : (V3 m c (Proc.devRef .tc main_v1) : S8192.Idx → EReal) = dvecK (m ((c : Thread nD τ).loc main_arg2)) :=
  after012_v1 (V0 m c)

/-- No stretch before the first region writes `main_arg4`, nor `main_arg6`. -/
theorem V3_arg4 : V3 m c (Proc.devRef .tc main_arg4) = m ((c : Thread nD τ).loc main_arg4) :=
  (V3_of m c main_arg4 (by decide)).trans <| (V2_of m c main_arg4 (by decide)).trans <| (V1_of m c main_arg4 (by decide)).trans rfl
theorem V3_arg6 : V3 m c (Proc.devRef .tc main_arg6) = m ((c : Thread nD τ).loc main_arg6) :=
  (V3_of m c main_arg6 (by decide)).trans <| (V2_of m c main_arg6 (by decide)).trans <| (V1_of m c main_arg6 (by decide)).trans rfl

/-- Entering the first region, `main_v2` holds the zeroed degree factors as a column. -/
theorem V4_v2 : (V4 m c (Proc.devRef .tc main_v2) : S8192x1.Idx → EReal) = Spec.col (dvecK (m ((c : Thread nD τ).loc main_arg2))) := by
  rw [← V3_v1 m c, ← shapeCast_col _ shapeCasts_S8192_S8192x1]
  exact after3_v2 (V3 m c)

/-- … `main_v3` the same factors as a row. -/
theorem V4_v3 : (V4 m c (Proc.devRef .tc main_v3) : S1x8192.Idx → EReal) = Spec.row (dvecK (m ((c : Thread nD τ).loc main_arg2))) := by
  rw [← V3_v1 m c, ← shapeCast_row _ shapeCasts_S8192_S1x8192]
  exact after3_v3 (V3 m c)

/-- … `main_v4` the first bias vector as a row. -/
theorem V4_v4 : (V4 m c (Proc.devRef .tc main_v4) : S1x256.Idx → EReal) = Spec.row (m ((c : Thread nD τ).loc main_arg4)) := by
  rw [← V3_arg4 m c, ← shapeCast_row _ shapeCasts_S256_S1x256]
  exact after3_v4 (V3 m c)

/-- … `main_v5` the second bias vector as a row. -/
theorem V4_v5 : (V4 m c (Proc.devRef .tc main_v5) : S1x10.Idx → EReal) = Spec.row (m ((c : Thread nD τ).loc main_arg6)) := by
  rw [← V3_arg6 m c, ← shapeCast_row _ shapeCasts_S10_S1x10]
  exact after3_v5 (V3 m c)

/-- The adjacency matrix, the features and the two weight matrices enter the first region as launched. -/
theorem V4_arg0 : V4 m c (Proc.devRef .tc main_arg0) = m ((c : Thread nD τ).loc main_arg0) :=
  (V4_of m c main_arg0 (by decide)).trans <| (V3_of m c main_arg0 (by decide)).trans <| (V2_of m c main_arg0 (by decide)).trans <| (V1_of m c main_arg0 (by decide)).trans rfl
theorem V4_arg1 : V4 m c (Proc.devRef .tc main_arg1) = m ((c : Thread nD τ).loc main_arg1) :=
  (V4_of m c main_arg1 (by decide)).trans <| (V3_of m c main_arg1 (by decide)).trans <| (V2_of m c main_arg1 (by decide)).trans <| (V1_of m c main_arg1 (by decide)).trans rfl
theorem V4_arg3 : V4 m c (Proc.devRef .tc main_arg3) = m ((c : Thread nD τ).loc main_arg3) :=
  (V4_of m c main_arg3 (by decide)).trans <| (V3_of m c main_arg3 (by decide)).trans <| (V2_of m c main_arg3 (by decide)).trans <| (V1_of m c main_arg3 (by decide)).trans rfl
theorem V4_arg5 : V4 m c (Proc.devRef .tc main_arg5) = m ((c : Thread nD τ).loc main_arg5) :=
  (V4_of m c main_arg5 (by decide)).trans <| (V3_of m c main_arg5 (by decide)).trans <| (V2_of m c main_arg5 (by decide)).trans <| (V1_of m c main_arg5 (by decide)).trans rfl

end Cert.KernelIdeal.Val

end
-- ==== Proof.KernelValue.lean ====
/-
  The idealized kernel program's result as the mathematics of Spec.lean: the last host stretch applied to the second
  region's output array, which is the second layer of the first region's output array, which is the first layer of
  the arguments; the degree factors reach both regions as a column and as a row of the cleaned vector.
-/
import proofs.«109548_j58411555225976_1_alg».proof.Proof.Run
import proofs.«109548_j58411555225976_1_alg».proof.Proof.Val0
import proofs.«109548_j58411555225976_1_alg».proof.Proof.Val1
import proofs.«109548_j58411555225976_1_alg».proof.Proof.HostK
import proofs.«109548_j58411555225976_1_alg».proof.Proof.Spec

set_option maxRecDepth 16384

noncomputable section

namespace Cert.KernelIdeal.Val

open Cert.KernelIdeal Cert.KernelIdeal.Gen Cert.KernelIdeal.Hand Idealize.ShloMosaic Idealize.ShloMosaic.TcCoe Idealize.ShloMosaic.ValueIdx

variable (m : (ℓ : Loc nD τ sig) → Buf (Elt Ideal) ℓ) (c : Dev nD)

/-- The cleaned degree factors of the launch memory. -/
abbrev dK : FVec Ideal S8192 .f32 := dvecK (m ((c : Thread nD τ).loc main_arg2))

/-- The first region's output array: the first layer of the arguments. -/
theorem arr0_spec :
    (arr0 (F := Ideal) m c : S8192x256.Idx → EReal)
      = Spec.layer Spec.relu0 (m ((c : Thread nD τ).loc main_arg0)) (Spec.col (dK m c)) (Spec.row (dK m c))
          (m ((c : Thread nD τ).loc main_arg1)) (m ((c : Thread nD τ).loc main_arg3)) (Spec.row (m ((c : Thread nD τ).loc main_arg4))) := by
  unfold arr0
  rw [arr0_eq (Vr4 m) c]
  show Spec.layer Spec.relu0 (V4 m c (Proc.devRef .tc main_arg0)) (V4 m c (Proc.devRef .tc main_v2)) (V4 m c (Proc.devRef .tc main_v3))
      (V4 m c (Proc.devRef .tc main_arg1)) (V4 m c (Proc.devRef .tc main_arg3)) (V4 m c (Proc.devRef .tc main_v4)) = _
  rw [V4_arg0 m c, V4_arg1 m c, V4_arg3 m c, V4_v2 m c, V4_v3 m c, V4_v4 m c]

/-- The second region's output array: the second layer over the first's. -/
theorem arr1_spec :
    (arr1 (F := Ideal) m c : S8192x10.Idx → EReal)
      = Spec.layer (fun x => x) (m ((c : Thread nD τ).loc main_arg0)) (Spec.col (dK m c)) (Spec.row (dK m c))
          (Spec.layer Spec.relu0 (m ((c : Thread nD τ).loc main_arg0)) (Spec.col (dK m c)) (Spec.row (dK m c))
            (m ((c : Thread nD τ).loc main_arg1)) (m ((c : Thread nD τ).loc main_arg3)) (Spec.row (m ((c : Thread nD τ).loc main_arg4))))
          (m ((c : Thread nD τ).loc main_arg5)) (Spec.row (m ((c : Thread nD τ).loc main_arg6))) := by
  unfold arr1
  rw [arr1_eq (Vr5 m) c]
  show Spec.layer (fun x => x) (W5 m c (Proc.devRef .tc main_arg0)) (W5 m c (Proc.devRef .tc main_v2)) (W5 m c (Proc.devRef .tc main_v3))
      (W5 m c (Proc.devRef .tc main_v6)) (W5 m c (Proc.devRef .tc main_arg5)) (W5 m c (Proc.devRef .tc main_v5)) = _
  rw [W5_v6 m c, arr0_spec m c, W5_of m c main_arg0 (by decide), W5_of m c main_v2 (by decide), W5_of m c main_v3 (by decide),
    W5_of m c main_arg5 (by decide), W5_of m c main_v5 (by decide), V4_arg0 m c, V4_arg5 m c, V4_v2 m c, V4_v3 m c, V4_v5 m c]

/-- THE RESULT of the idealized kernel program. -/
theorem result_spec :
    (W7 (F := Ideal) m c (Proc.devRef .tc main_v19) : S64x10.Idx → EReal)
      = tailK (Spec.layer (fun x => x) (m ((c : Thread nD τ).loc main_arg0)) (Spec.col (dK m c)) (Spec.row (dK m c))
          (Spec.layer Spec.relu0 (m ((c : Thread nD τ).loc main_arg0)) (Spec.col (dK m c)) (Spec.row (dK m c))
            (m ((c : Thread nD τ).loc main_arg1)) (m ((c : Thread nD τ).loc main_arg3)) (Spec.row (m ((c : Thread nD τ).loc main_arg4))))
          (m ((c : Thread nD τ).loc main_arg5)) (Spec.row (m ((c : Thread nD τ).loc main_arg6)))) (m ((c : Thread nD τ).loc main_arg7)) := by
  show (StableHlo.after (hostOps2 (F := Ideal)) (W6 m c) (Proc.devRef .tc main_v19) : S64x10.Idx → EReal) = _
  rw [after_tail (W6 m c), W6_v7 m c, arr1_spec m c]
  exact congrArg (tailK _) ((W6_of m c main_arg7 (by decide)).trans <| (W5_of m c main_arg7 (by decide)).trans <|
    (V4_of m c main_arg7 (by decide)).trans <| (V3_of m c main_arg7 (by decide)).trans <| (V2_of m c main_arg7 (by decide)).trans <|
    (V1_of m c main_arg7 (by decide)).trans rfl)

end Cert.KernelIdeal.Val

end
-- ==== Proof.RefVal.lean ====
/-
  What the idealized reference program computes, as the mathematics of the specification.

  The host program first replaces every infinite entry of the degree factors by zero (dvecR), scales the
  adjacency matrix's entry (r, c) by the factor of row r and then by the factor of column c, applies two
  graph-convolution layers (the aggregation over all 8192 columns at once, a product with the weights, a bias row,
  and after the first layer the maximum with zero), and ends with a mean over graphs (tailR: the segment sums of
  the node outputs and of ones over the graph ids, and the quotient by the count, the count taken at least one).
  The first and the last stretch are carried as opaque functions; the middle is read index by index, and is the
  specification's layer twice.
-/
import proofs.«109548_j58411555225976_1_alg».proof.Proof.Gen.ReferenceIdeal.Run
import proofs.«109548_j58411555225976_1_alg».proof.Proof.Gen.ReferenceIdeal.Read
import proofs.«109548_j58411555225976_1_alg».proof.Proof.Spec
import proofs.«109548_j58411555225976_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefVal

open Cert.ReferenceIdeal Cert.ReferenceIdeal.Gen Idealize.ShloMosaic Idealize.ShloMosaic.TcCoe Idealize.ShloMosaic.ValueIdx
open Idealize.SL.Sem
open Cert.ReferenceIdeal.Read

/-! ## The two opaque stretches -/

/-- The degree factors with every infinite entry replaced by zero: the program's first eight operations. -/
def dvecR (dis : FVec Ideal S8192 .f32) : FVec Ideal S8192 .f32 :=
  select (cmpf .oeq (Host.absf dis) (broadcastInDim S8192 ![] bcast_S_S8192 (constant (F := Ideal) S_ .f32 0x7F800000#32)))
    (broadcastInDim S8192 ![] bcast_S_S8192 (id (constant (F := Ideal) S_ .f32 0x00000000#32))) dis

/-- The mean over graphs of the node outputs x, the nodes' graph ids g: the program's last sixteen operations. -/
def tailR (x : FVec Ideal S8192x10 .f32) (g : IVec S8192 32) : FVec Ideal S64x10 .f32 :=
  Host.divf
    (Host.scatterAdd scatter_S64x10_S8192x1_S8192x10_1_0_0_1
      (broadcastInDim S64x10 ![] bcast_S_S64x10 (constant (F := Ideal) S_ .f32 0x00000000#32))
      (broadcastInDim S8192x1 ![0] bcast_S8192_S8192x1_0 g) x)
    (broadcastInDim S64x10 ![0, 1] bcast_S64x1_S64x10_0_1 (broadcastInDim S64x1 ![0] bcast_S64_S64x1_0
      (maximumf
        (Host.scatterAdd scatter_S64_S8192x1_S8192_n_0_0_1
          (broadcastInDim S64 ![] bcast_S_S64 (constant (F := Ideal) S_ .f32 0x00000000#32))
          (broadcastInDim S8192x1 ![0] bcast_S8192_S8192x1_0 g)
          (broadcastInDim S8192 ![] bcast_S_S8192 (constant (F := Ideal) S_ .f32 0x3F800000#32)))
        (broadcastInDim S64 ![] bcast_S_S64 (constant (F := Ideal) S_ .f32 0x3F800000#32)))))

/-- The stage after the first eight operations is dvecR. -/
theorem v1_eq (dis : FVec Ideal S8192 .f32) : val_main_v1 (F := Ideal) dis = dvecR dis := rfl

/-- The last stage is tailR of the stage before the last sixteen operations. -/
theorem v30_eq (x0 : FVec Ideal S8192x8192 .f32) (x1 : FVec Ideal S8192x128 .f32) (x2 : FVec Ideal S8192 .f32)
    (x3 : FVec Ideal S128x256 .f32) (x4 : FVec Ideal S256 .f32) (x5 : FVec Ideal S256x10 .f32) (x6 : FVec Ideal S10 .f32)
    (x7 : IVec S8192 32) :
    val_main_v30 (F := Ideal) x0 x1 x2 x3 x4 x5 x6 x7 = tailR (val_main_v18 (F := Ideal) x0 x1 x2 x3 x4 x5 x6) x7 := rfl

/-! ## The normalised adjacency -/

/-- Entry (r, c) of the scaled adjacency matrix: the entry times the row's factor, times the column's. -/
theorem v7_apply (A : FVec Ideal S8192x8192 .f32) (dis : FVec Ideal S8192 .f32) (r c : Fin 8192) :
    val_main_v7 (F := Ideal) A dis (ix2 r c)
      = Spec.nadj A (Spec.col (dvecR dis)) (Spec.row (dvecR dis)) r c := by
  have e1 : idx_main_v2 (idx_main_v3 (ix2 r c)) = ix1 r :=
    funext fun a => Fin.ext (by match a with | ⟨0, _⟩ => rfl)
  have e2 : idx_main_v5 (idx_main_v6 (ix2 r c)) = ix1 c :=
    funext fun a => Fin.ext (by match a with | ⟨0, _⟩ => rfl)
  rw [val_main_v7_apply, val_main_v4_apply, val_main_v3_apply, val_main_v2_apply, val_main_v6_apply,
    val_main_v5_apply, e1, e2, v1_eq]
  rfl

/-! ## The first layer -/

/-- The aggregated input features. -/
theorem v8_apply (A : FVec Ideal S8192x8192 .f32) (X : FVec Ideal S8192x128 .f32) (dis : FVec Ideal S8192 .f32)
    (r : Fin 8192) (q : Fin 128) :
    val_main_v8 (F := Ideal) A X dis (ix2 r q)
      = Spec.agg A (Spec.col (dvecR dis)) (Spec.row (dvecR dis)) X r q := by
  rw [val_main_v8_apply]
  refine Finset.sum_congr rfl fun k _ => ?_
  have el : lidx_main_v8 (ix2 r q) k = ix2 r k :=
    funext fun a => Fin.ext (by match a with | ⟨0, _⟩ => rfl | ⟨1, _⟩ => rfl)
  have er : ridx_main_v8 (ix2 r q) k = ix2 k q :=
    funext fun a => Fin.ext (by match a with | ⟨0, _⟩ => rfl | ⟨1, _⟩ => rfl)
  rw [el, er, v7_apply]

/-- The hidden features: the first layer, with the maximum with zero. -/
theorem v13_eq (A : FVec Ideal S8192x8192 .f32) (X : FVec Ideal S8192x128 .f32) (dis : FVec Ideal S8192 .f32)
    (W : FVec Ideal S128x256 .f32) (b : FVec Ideal S256 .f32) :
    val_main_v13 (F := Ideal) A X dis W b
      = Spec.layer Spec.relu0 A (Spec.col (dvecR dis)) (Spec.row (dvecR dis)) X W (Spec.row b) := by
  funext i
  obtain ⟨r, j, rfl⟩ : ∃ (r : Fin 8192) (j : Fin 256), i = ix2 r j := ⟨i 0, i 1, eq_ix2 i⟩
  have eb : idx_main_v10 (idx_main_v11 (ix2 r j)) = ix1 j :=
    funext fun a => Fin.ext (by match a with | ⟨0, _⟩ => rfl)
  have hs : (∑ k : Fin 128, val_main_v8 (F := Ideal) A X dis (lidx_main_v9 (ix2 r j) k) * W (ridx_main_v9 (ix2 r j) k))
      = ∑ q : Fin 128, Spec.agg A (Spec.col (dvecR dis)) (Spec.row (dvecR dis)) X r q * W (ix2 q j) := by
    refine Finset.sum_congr rfl fun k _ => ?_
    have el : lidx_main_v9 (ix2 r j) k = ix2 r k :=
      funext fun a => Fin.ext (by match a with | ⟨0, _⟩ => rfl | ⟨1, _⟩ => rfl)
    have er : ridx_main_v9 (ix2 r j) k = ix2 k j :=
      funext fun a => Fin.ext (by match a with | ⟨0, _⟩ => rfl | ⟨1, _⟩ => rfl)
    rw [el, er, v8_apply]
  rw [val_main_v13_apply, val_main_v12_apply, val_main_v9_apply, val_main_v11_apply, val_main_v10_apply,
    val_main_call2_v0_apply, val_main_call2_cst_apply, eb, hs]
  rfl

/-! ## The second layer -/

/-- The aggregated hidden features. -/
theorem v14_apply (A : FVec Ideal S8192x8192 .f32) (X : FVec Ideal S8192x128 .f32) (dis : FVec Ideal S8192 .f32)
    (W : FVec Ideal S128x256 .f32) (b : FVec Ideal S256 .f32) (r : Fin 8192) (q : Fin 256) :
    val_main_v14 (F := Ideal) A X dis W b (ix2 r q)
      = Spec.agg A (Spec.col (dvecR dis)) (Spec.row (dvecR dis))
          (Spec.layer Spec.relu0 A (Spec.col (dvecR dis)) (Spec.row (dvecR dis)) X W (Spec.row b)) r q := by
  rw [val_main_v14_apply, v13_eq]
  refine Finset.sum_congr rfl fun k _ => ?_
  have el : lidx_main_v14 (ix2 r q) k = ix2 r k :=
    funext fun a => Fin.ext (by match a with | ⟨0, _⟩ => rfl | ⟨1, _⟩ => rfl)
  have er : ridx_main_v14 (ix2 r q) k = ix2 k q :=
    funext fun a => Fin.ext (by match a with | ⟨0, _⟩ => rfl | ⟨1, _⟩ => rfl)
  rw [el, er, v7_apply]

/-- The node outputs: the second layer, with no maximum. -/
theorem v18_eq (A : FVec Ideal S8192x8192 .f32) (X : FVec Ideal S8192x128 .f32) (dis : FVec Ideal S8192 .f32)
    (W1 : FVec Ideal S128x256 .f32) (b1 : FVec Ideal S256 .f32) (W2 : FVec Ideal S256x10 .f32) (b2 : FVec Ideal S10 .f32) :
    val_main_v18 (F := Ideal) A X dis W1 b1 W2 b2
      = Spec.layer (fun x => x) A (Spec.col (dvecR dis)) (Spec.row (dvecR dis))
          (Spec.layer Spec.relu0 A (Spec.col (dvecR dis)) (Spec.row (dvecR dis)) X W1 (Spec.row b1)) W2 (Spec.row b2) := by
  funext i
  obtain ⟨r, j, rfl⟩ : ∃ (r : Fin 8192) (j : Fin 10), i = ix2 r j := ⟨i 0, i 1, eq_ix2 i⟩
  have eb : idx_main_v16 (idx_main_v17 (ix2 r j)) = ix1 j :=
    funext fun a => Fin.ext (by match a with | ⟨0, _⟩ => rfl)
  have hs : (∑ k : Fin 256, val_main_v14 (F := Ideal) A X dis W1 b1 (lidx_main_v15 (ix2 r j) k) * W2 (ridx_main_v15 (ix2 r j) k))
      = ∑ q : Fin 256, Spec.agg A (Spec.col (dvecR dis)) (Spec.row (dvecR dis))
          (Spec.layer Spec.relu0 A (Spec.col (dvecR dis)) (Spec.row (dvecR dis)) X W1 (Spec.row b1)) r q * W2 (ix2 q j) := by
    refine Finset.sum_congr rfl fun k _ => ?_
    have el : lidx_main_v15 (ix2 r j) k = ix2 r k :=
      funext fun a => Fin.ext (by match a with | ⟨0, _⟩ => rfl | ⟨1, _⟩ => rfl)
    have er : ridx_main_v15 (ix2 r j) k = ix2 k j :=
      funext fun a => Fin.ext (by match a with | ⟨0, _⟩ => rfl | ⟨1, _⟩ => rfl)
    rw [el, er, v14_apply]
  rw [val_main_v18_apply, val_main_v15_apply, val_main_v17_apply, val_main_v16_apply, eb, hs]
  rfl

/-! ## The whole program -/

/-- The program's result as a function of its eight arguments. -/
theorem v30_spec (A : FVec Ideal S8192x8192 .f32) (X : FVec Ideal S8192x128 .f32) (dis : FVec Ideal S8192 .f32)
    (W1 : FVec Ideal S128x256 .f32) (b1 : FVec Ideal S256 .f32) (W2 : FVec Ideal S256x10 .f32) (b2 : FVec Ideal S10 .f32)
    (g : IVec S8192 32) :
    val_main_v30 (F := Ideal) A X dis W1 b1 W2 b2 g
      = tailR (Spec.layer (fun x => x) A (Spec.col (dvecR dis)) (Spec.row (dvecR dis))
          (Spec.layer Spec.relu0 A (Spec.col (dvecR dis)) (Spec.row (dvecR dis)) X W1 (Spec.row b1)) W2 (Spec.row b2)) g := by
  rw [v30_eq]
  exact congrArg (fun x => tailR x g) (v18_eq A X dis W1 b1 W2 b2)

/-- On every device, from any memory with zero counters, every weakly fair execution of the reference terminates
    with the result at the graph mean of the two layers of the arguments, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
        = tailR (Spec.layer (fun x => x) (m ((c.tc : Thread nD τ).loc main_arg0))
            (Spec.col (dvecR (m ((c.tc : Thread nD τ).loc main_arg2)))) (Spec.row (dvecR (m ((c.tc : Thread nD τ).loc main_arg2))))
            (Spec.layer Spec.relu0 (m ((c.tc : Thread nD τ).loc main_arg0))
              (Spec.col (dvecR (m ((c.tc : Thread nD τ).loc main_arg2)))) (Spec.row (dvecR (m ((c.tc : Thread nD τ).loc main_arg2))))
              (m ((c.tc : Thread nD τ).loc main_arg1)) (m ((c.tc : Thread nD τ).loc main_arg3))
              (Spec.row (m ((c.tc : Thread nD τ).loc main_arg4))))
            (m ((c.tc : Thread nD τ).loc main_arg5)) (Spec.row (m ((c.tc : Thread nD τ).loc main_arg6))))
          (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((val_main_v30_eq _ _ _ _ _ _ _ _).trans (v30_spec _ _ _ _ _ _ _ _)), (h c).2⟩)
    (Cert.ReferenceIdeal.Value.run (F := Ideal) m ρ)

end Cert.ReferenceIdeal.RefVal

end
-- ==== Proof.lean ====
/-
  The certificate of a two-layer graph convolution followed by a per-graph mean: the kernel's program against the
  plain reference, over the extended reals.

  Each layer multiplies the normalised adjacency `D^-1/2 A D^-1/2` into the features, applies a dense layer, and (in the
  first layer) a relu. The kernel forms the 8192-term sums eight column blocks of 1024 at a time into an accumulator;
  the reference forms them at once. Sums of extended reals may be regrouped freely, so the two agree with no
  finiteness assumption; the host operations before and after the two kernel regions are the reference's own.

  The three frames: both kernel programs run through their two pipelined regions to the end with every argument array
  unchanged (`Hand.frame`); the reference's run is its host operations' (`Value.run`).
-/
import proofs.«109548_j58411555225976_1_alg».proof.Defs
import proofs.«109548_j58411555225976_1_alg».proof.Proof.Gen.Kernel
import proofs.«109548_j58411555225976_1_alg».proof.Proof.Gen.KernelIdeal
import proofs.«109548_j58411555225976_1_alg».proof.Proof.Gen.ReferenceIdeal
import proofs.«109548_j58411555225976_1_alg».proof.Proof.Gen.ReferenceIdeal.Run
import proofs.«109548_j58411555225976_1_alg».proof.Proof.Gen.ReferenceIdeal.Read
import proofs.«109548_j58411555225976_1_alg».proof.Proof.Gen.Pre_finite_inputs
import proofs.«109548_j58411555225976_1_alg».proof.Proof.Run
import proofs.«109548_j58411555225976_1_alg».proof.Proof.KRun
import proofs.«109548_j58411555225976_1_alg».proof.Proof.KernelValue
import proofs.«109548_j58411555225976_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end with the same array: the kernel program's result is the shared closing host
    operations applied to the second layer of the first layer of the arguments (`Val.result_spec`: each region's output
    array is its layer, the block-by-block accumulation summed up), and so is the reference's (`RefVal.run_spec`); the
    arguments agree by hypothesis. -/
theorem algebraic : Cert.algebraic_KernelIdeal_ReferenceIdeal := by
  intro m ρ m' ρ' _ hagree
  refine ⟨fun c => Cert.KernelIdeal.Hand.W7 (F := Ideal) m c (Proc.devRef .tc Cert.KernelIdeal.main_v19), ?_, ?_⟩
  · exact (θ_run Cert.KernelIdeal.defs _ _).mono (fun _ h c =>
      ⟨h c _ (Cert.KernelIdeal.Hand.mem_uc Cert.KernelIdeal.main_v19 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c),
       (h c _ (Cert.KernelIdeal.Hand.mem_uc Cert.KernelIdeal.main_arg6 (by decide))).trans (Cert.KernelIdeal.Hand.W7_main_arg6 m c),
       (h c _ (Cert.KernelIdeal.Hand.mem_uc Cert.KernelIdeal.main_arg7 (by decide))).trans (Cert.KernelIdeal.Hand.W7_main_arg7 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.RefVal.run_spec m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.KernelIdeal.Val.result_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
